-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S8x128x128 : Shape := ⟨3, ![8, 128, 128]⟩
abbrev S19x256 : Shape := ⟨2, ![19, 256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S19x256 : S_.BroadcastsInDim S19x256 (![] : Fin 0 → Fin S19x256.rank)
  reducesTo_S19x256_S_d0_1 : S19x256.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S8x256x128x128 .f32) (main_arg1 : IVec S8x128x128 32) (main_arg2 : FVec F S19x256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S19x256 .f32 := Host.absf main_arg2
  let main_cst_0 : FVec F S_ .f32 := constant S_ .f32 0x7F800000#32
  let main_v5 : FVec F S19x256 .f32 := broadcastInDim S19x256 ![] bcast_S_S19x256 main_cst_0
  let main_v6 : IVec S19x256 1 := cmpf .olt main_v4 main_v5
  let main_c_1 : IVec S_ 1 := constantI S_ 1 1#1
  let main_v7 : IVec S_ 1 := (fun x v => Host.reduce IntOp.andi x v reducesTo_S19x256_S_d0_1 h_S_) main_v6 main_c_1
  let main_v8 : IVec S_ 1 := andi main_v3 main_v7
  let main_c_2 : IVec S_ 32 := constantI S_ 32 0#32
  let main_v9 : IVec S8x128x128 32 := broadcastInDim S8x128x128 ![] bcast_S_S8x128x128 main_c_2
  let main_v10 : IVec S8x128x128 1 := cmpi .sge main_arg1 main_v9
  let main_c_3 : IVec S_ 32 := constantI S_ 32 19#32
  let main_v11 : IVec S8x128x128 32 := broadcastInDim S8x128x128 ![] bcast_S_S8x128x128 main_c_3
  let main_v12 : IVec S8x128x128 1 := cmpi .sle main_arg1 main_v11
  let main_v13 : IVec S8x128x128 1 := andi main_v10 main_v12
  let main_c_4 : IVec S_ 1 := constantI S_ 1 1#1
  let main_v14 : IVec S_ 1 := (fun x v => Host.reduce IntOp.andi x v reducesTo_S8x128x128_S_d0_1_2 h_S_) main_v13 main_c_4
  let main_v15 : IVec S_ 1 := andi main_v8 main_v14
  main_v15
-- ==== Kernel.lean ====
abbrev S8x256x128x128 : Shape := ⟨4, ![8, 256, 128, 128]⟩
abbrev S8x128x128 : Shape := ⟨3, ![8, 128, 128]⟩
abbrev S19x256 : Shape := ⟨2, ![19, 256]⟩
abbrev S8x256x16384 : Shape := ⟨3, ![8, 256, 16384]⟩
abbrev S8x16384 : Shape := ⟨2, ![8, 16384]⟩
abbrev S8x1x16384 : Shape := ⟨3, ![8, 1, 16384]⟩
abbrev S16x128 : Shape := ⟨2, ![16, 128]⟩
abbrev S1x256x8192 : Shape := ⟨3, ![1, 256, 8192]⟩
abbrev S1x1x8192 : Shape := ⟨3, ![1, 1, 8192]⟩
abbrev S8x128 : Shape := ⟨2, ![8, 128]⟩
abbrev S1x1 : Shape := ⟨2, ![1, 1]⟩
abbrev S256x8192 : Shape := ⟨2, ![256, 8192]⟩
abbrev S19x8192 : Shape := ⟨2, ![19, 8192]⟩
abbrev S1x8192 : Shape := ⟨2, ![1, 8192]⟩
abbrev S8192 : Shape := ⟨1, ![8192]⟩
abbrev S1 : Shape := ⟨1, ![1]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S19x256, .f32⟩
  | .hbm, ⟨3, _⟩ => ⟨S8x256x16384, .f32⟩
  | .hbm, ⟨4, _⟩ => ⟨S8x16384, .i32⟩
  | .hbm, ⟨5, _⟩ => ⟨S8x1x16384, .i32⟩
  | .hbm, ⟨6, _⟩ => ⟨S16x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x256x8192, .f32⟩
  | .local _ .vmem, ⟨1, _⟩ => ⟨S1x256x8192, .f32⟩
  | .local _ .vmem, ⟨2, _⟩ => ⟨S1x1x8192, .i32⟩
  | .local _ .vmem, ⟨3, _⟩ => ⟨S1x1x8192, .i32⟩
  | .local _ .vmem, ⟨4, _⟩ => ⟨S19x256, .f32⟩
  | .local _ .vmem, ⟨5, _⟩ => ⟨S8x128, .f32⟩
  | .local _ .vmem, ⟨6, _⟩ => ⟨S8x128, .f32⟩
  | .local _ .vmem, ⟨7, _⟩ => ⟨S1x1, .f32⟩
  | .local _ .vmem, ⟨8, _⟩ => ⟨S1x1, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg1 : BitVec 32 := BitVec.ofNat 32 (i 1).val
  let c3_i32 : BitVec 32 := 3#32
  let v3 : BitVec 1 := Scalar.cmpi .eq arg1 c3_i32
  let arg2 : BitVec 32 := BitVec.ofNat 32 (i 2).val
  let c1_i32 : BitVec 32 := 1#32
  let v4 : BitVec 1 := Scalar.cmpi .eq arg2 c1_i32
  let v5 : BitVec 1 := Scalar.andi v3 v4
  let v46 : BitVec 32 := Scalar.extui v5
  let c0_i32_24 : BitVec 32 := 0#32
  let v47 : BitVec 1 := Scalar.cmpi .ne v46 c0_i32_24
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S19x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S8x256x128x128_S8x256x16384 : S8x256x128x128.ShapeCasts S8x256x16384
  shapeCasts_S8x128x128_S8x16384 : S8x128x128.ShapeCasts S8x16384
  shapeCasts_S8x16384_S8x1x16384 : S8x16384.ShapeCasts S8x1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S19x256_S19x256_0_0 : ∀ a, (![0, 0] : Fin 2 → Nat) a + S19x256.size a ≤ S19x256.size a
  h_S19x256 : 0 < S19x256.numel
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  iota_S19x8192_d0_w32 : S19x8192.Iotas .tc 32 [0]
  broadcasts_S1x8192_S19x8192 : S1x8192.Broadcasts S19x8192
  reduces_S19x8192_S8192 : S19x8192.Reduces [0] S8192
  shapeCasts_S8192_S1x8192 : S8192.ShapeCasts S1x8192
  reduces_S1x8192_S1 : S1x8192.Reduces [1] S1
  shapeCasts_S1_S1x1 : S1.ShapeCasts S1x1
  natLt_1_32 : 1 < 32
  iota_S8x128_d0_w32 : S8x128.Iotas .tc 32 [0]
  iota_S8x128_d1_w32 : S8x128.Iotas .tc 32 [1]
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  slices_S16x128_S1x1_1_0 : S16x128.Slices ![1, 0] S1x1
  slices_S16x128_S1x1_9_0 : S16x128.Slices ![9, 0] S1x1
  dot_S19x256_S256x8192_S19x8192_1_0_0_1_n_n_wf : DotDims.WF S19x256 S256x8192 S19x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S8x256x16384.size a
  hwx0_0 : ∀ i : grid0.Coords, EltTy.bits .f32 = 32 ∨ (Rect.block (s := S8x256x16384) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S8x1x16384.size a
  hwx0_1 : ∀ i : grid0.Coords, EltTy.bits .i32 = 32 ∨ (Rect.block (s := S8x1x16384) S1x1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x256.size a ≤ S19x256.size a
  hwx0_2 : ∀ i : grid0.Coords, EltTy.bits .f32 = 32 ∨ (Rect.block (s := S19x256) S19x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S19x256_S256x8192_S19x8192_1_0_0_1_n_n : DotDims S19x256 S256x8192 S19x8192 where
  lhsContracting := [1]
  rhsContracting := [0]
  lhsNonContracting := [0]
  rhsNonContracting := [1]
  lhsBatch := []
  rhsBatch := []
  wf := dot_S19x256_S256x8192_S19x8192_1_0_0_1_n_n_wf

abbrev win0_0 : Pipeline.Window sig grid0 :=
  Pipeline.Window.ofSpec (Memref.whole main_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S19x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x256x128x128 : Shape := ⟨4, ![8, 256, 128, 128]⟩
abbrev S8x128x128 : Shape := ⟨3, ![8, 128, 128]⟩
abbrev S19x256 : Shape := ⟨2, ![19, 256]⟩
abbrev S8x128x128x256 : Shape := ⟨4, ![8, 128, 128, 256]⟩
abbrev S131072x256 : Shape := ⟨2, ![131072, 256]⟩
abbrev S131072 : Shape := ⟨1, ![131072]⟩
abbrev S_ : Shape := ⟨0, ![]⟩
abbrev S256x19 : Shape := ⟨2, ![256, 19]⟩
abbrev S131072x19 : Shape := ⟨2, ![131072, 19]⟩
abbrev S131072x1 : Shape := ⟨2, ![131072, 1]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S19x256, .f32⟩
  | .hbm, ⟨3, _⟩ => ⟨S8x128x128x256, .f32⟩
  | .hbm, ⟨4, _⟩ => ⟨S131072x256, .f32⟩
  | .hbm, ⟨5, _⟩ => ⟨S131072, .i32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S256x19, .f32⟩
  | .hbm, ⟨10, _⟩ => ⟨S131072x19, .f32⟩
  | .hbm, ⟨11, _⟩ => ⟨S_, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S_, .i32⟩
  | .hbm, ⟨17, _⟩ => ⟨S131072x1, .i32⟩
  | .hbm, ⟨18, _⟩ => ⟨S131072x1, .i1⟩
  | .hbm, ⟨19, _⟩ => ⟨S_, .i32⟩
  | .hbm, ⟨20, _⟩ => ⟨S131072x1, .i32⟩
  | .hbm, ⟨21, _⟩ => ⟨S131072x1, .i32⟩
  | .hbm, ⟨22, _⟩ => ⟨S131072x1, .i32⟩
  | .hbm, ⟨23, _⟩ => ⟨S131072x1x1, .i32⟩
  | .hbm, ⟨24, _⟩ => ⟨S1, .i32⟩
  | .hbm, ⟨25, _⟩ => ⟨S_, .i32⟩
  | .hbm, ⟨26, _⟩ => ⟨S131072x1x1, .i32⟩
  | .hbm, ⟨27, _⟩ => ⟨S131072x1x1, .i1⟩
  | .hbm, ⟨28, _⟩ => ⟨S1x1x1, .i32⟩
  | .hbm, ⟨29, _⟩ => ⟨S131072x1x1, .i32⟩
  | .hbm, ⟨30, _⟩ => ⟨S131072x1x1, .i1⟩
  | .hbm, ⟨31, _⟩ => ⟨S131072x1x1, .i1⟩
  | .hbm, ⟨32, _⟩ => ⟨S_, .i1⟩
  | .hbm, ⟨33, _⟩ => ⟨S131072x1, .i1⟩
  | .hbm, ⟨34, _⟩ => ⟨S131072x1, .f32⟩
  | .hbm, ⟨35, _⟩ => ⟨S_, .f32⟩
  | .hbm, ⟨36, _⟩ => ⟨S131072x1, .f32⟩
  | .hbm, ⟨37, _⟩ => ⟨S131072x1, .f32⟩
  | .hbm, ⟨38, _⟩ => ⟨S131072, .f32⟩
  | .hbm, ⟨39, _⟩ => ⟨S_, .f32⟩
  | .hbm, ⟨40, _⟩ => ⟨S131072, .f32⟩
  | .hbm, ⟨41, _⟩ => ⟨S131072, .f32⟩
  | .hbm, ⟨42, _⟩ => ⟨S131072, .f32⟩
  | .hbm, ⟨43, _⟩ => ⟨S131072, .f32⟩
  | .hbm, ⟨44, _⟩ => ⟨S131072, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_cst_2 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  transposes_S8x256x128x128_S8x128x128x256_0_2_3_1 : S8x256x128x128.Transposes [0, 2, 3, 1] S8x128x128x256
  shapeCasts_S8x128x128x256_S131072x256 : S8x128x128x256.ShapeCasts S131072x256
  shapeCasts_S8x128x128_S131072 : S8x128x128.ShapeCasts S131072
  bcast_S_S131072 : S_.BroadcastsInDim S131072 (![] : Fin 0 → Fin S131072.rank)
  transposes_S19x256_S256x19_1_0 : S19x256.Transposes [1, 0] S256x19
  bcast_S131072_S131072x1_0 : S131072.BroadcastsInDim S131072x1 (![0] : Fin 1 → Fin S131072x1.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  shapeCasts_S131072x1_S131072 : S131072x1.ShapeCasts S131072
  reducesTo_S131072_S_d0 : S131072.ReducesTo [0] S_
  dot_S131072x256_S256x19_S131072x19_1_0_0_1_n_n_wf : DotDims.WF S131072x256 S256x19 S131072x19 [1] [0] [0] [1] [] []
  gather_S131072x19_S131072x1x1_S131072x1_n_1_0_0_1_2_11_wf : GatherDims.WF S131072x19 S131072x1x1 S131072x1 [] [1] [0] [1] [0] 2 ![1, 1]

variable [Facts₀]

def dot_S131072x256_S256x19_S131072x19_1_0_0_1_n_n : DotDims S131072x256 S256x19 S131072x19 where
  lhsContracting := [1]
  rhsContracting := [0]
  lhsNonContracting := [0]
  rhsNonContracting := [1]
  lhsBatch := []
  rhsBatch := []
  wf := dot_S131072x256_S256x19_S131072x19_1_0_0_1_n_n_wf
def gather_S131072x19_S131072x1x1_S131072x1_n_1_0_0_1_2_11 : GatherDims S131072x19 S131072x1x1 S131072x1 where
  offsetDims := []
  collapsedSliceDims := [1]
  operandBatchingDims := [0]
  startIndicesBatchingDims := [0]
  startIndexMap := [1]
  indexVectorDim := 2
  sliceSizes := ![1, 1]
  wf := gather_S131072x19_S131072x1x1_S131072x1_n_1_0_0_1_2_11_wf

class Facts : Prop extends Facts₀ where

variable [Facts]
-- ==== Proof.Spec.lean ====
/-
  The pixel-prototype distance loss as mathematics, over abstract argument arrays: an embedding E of shape
  [8, 256, 128, 128] (batch, channel, row, column), a label image L of shape [8, 128, 128] and a prototype table Q
  of shape [19, 256] (class, channel).  The 8·128·128 pixels are numbered row-major: pixel n sits at batch n / 16384,
  row n / 128 % 128, column n % 128.  At a pixel the similarity with class k is the inner product over the 256
  channels of prototype k with the pixel's embedding; a pixel whose label is the ignore value 19 contributes nothing,
  any other pixel contributes (1 - similarity with its own class)² to the numerator and 1 to the denominator, and the
  loss is the quotient of the two totals (0/0 included: whatever the quotient of extended reals says).

  Both programs compute this.  What differs is the grouping of the two sums: one program adds all 131072 pixels at
  once, the other adds 16 runs of 8192 consecutive pixels, eight runs into one accumulator and eight into another.
  The grouping lemmas are here; only commutativity and associativity of + on the extended reals are used, so no
  finiteness is needed.
-/
import Idealize.ShloMosaic.PureOps.Ideal
import Idealize.ShloMosaic.Lib.ValueIdx
import Mathlib.Algebra.BigOperators.Intervals
import Mathlib.Algebra.BigOperators.Fin

noncomputable section

open scoped BigOperators

namespace Cert.PixelLoss

open Idealize.ShloMosaic Idealize.ShloMosaic.ValueIdx

abbrev EmbS : Shape := ⟨4, ![8, 256, 128, 128]⟩
abbrev LblS : Shape := ⟨3, ![8, 128, 128]⟩
abbrev ProtoS : Shape := ⟨2, ![19, 256]⟩

/-- The float literal 1.0 both programs subtract the similarity from (kept as its word: both sides carry the same one). -/
abbrev one : EReal := Ideal.ofBits .f32 0x3F800000#32

/-- A label word read as a class, clamped into the 19 classes (on the labels 0 … 18 it is the label). -/
def cls (w : BitVec 32) : Fin 19 := ⟨min w.toNat 18, by omega⟩

theorem cls_val_of_le {w : BitVec 32} (h : w.toNat ≤ 18) : (cls w).val = w.toNat := by
  show min w.toNat 18 = w.toNat
  omega

/-- Pixel n's batch, row and column. -/
def pixB (n : Fin 131072) : Fin 8 := ⟨n.val / 16384, by have := n.isLt; omega⟩
def pixH (n : Fin 131072) : Fin 128 := ⟨n.val / 128 % 128, Nat.mod_lt _ (by decide)⟩
def pixW (n : Fin 131072) : Fin 128 := ⟨n.val % 128, Nat.mod_lt _ (by decide)⟩

section
variable (E : EmbS.Idx → EReal) (L : LblS.Idx → BitVec 32) (Q : ProtoS.Idx → EReal)

/-- The label word at pixel n. -/
def label (n : Fin 131072) : BitVec 32 := L (ix3 (pixB n) (pixH n) (pixW n))

/-- The similarity of pixel n with class k: prototype k · the pixel's embedding, over the 256 channels. -/
def sim (n : Fin 131072) (k : Fin 19) : EReal := ∑ d : Fin 256, Q (ix2 k d) * E (ix4 (pixB n) d (pixH n) (pixW n))

/-- What pixel n adds to the numerator. -/
def lossTerm (n : Fin 131072) : EReal :=
  if label L n = 19#32 then 0 else (one - sim E Q n (cls (label L n))) * (one - sim E Q n (cls (label L n)))

/-- What pixel n adds to the denominator. -/
def validTerm (n : Fin 131072) : EReal := if label L n = 19#32 then 0 else 1

/-- The loss. -/
def loss : EReal := Ideal.div (∑ n, lossTerm E L Q n) (∑ n, validTerm L n)
end

/-! ## Grouping the pixel sum into runs of 8192 -/

/-- A function of the pixels extended by zero to every natural number. -/
def ext (f : Fin 131072 → EReal) (n : ℕ) : EReal := if h : n < 131072 then f ⟨n, h⟩ else 0

theorem ext_val (f : Fin 131072 → EReal) (n : Fin 131072) : ext f n.val = f n := by
  unfold ext; rw [dif_pos n.isLt]

/-- The sum of f over run t: the 8192 consecutive pixels from 8192 · t. -/
def runSum (f : Fin 131072 → EReal) (t : ℕ) : EReal := ∑ j : Fin 8192, ext f (8192 * t + j.val)

/-- A sum over a range of T · K naturals is the sum over T runs of K. -/
theorem sum_range_mul {M : Type*} [AddCommMonoid M] (g : ℕ → M) (K : ℕ) :
    ∀ T : ℕ, ∑ n ∈ Finset.range (T * K), g n = ∑ t ∈ Finset.range T, ∑ j ∈ Finset.range K, g (K * t + j)
  | 0 => by simp
  | T + 1 => by
    rw [Nat.succ_mul, Finset.sum_range_add, sum_range_mul g K T, Finset.sum_range_succ, Nat.mul_comm T K]

/-- The sum over all pixels is the sum over the 16 runs. -/
theorem sum_pixels_eq_runs (f : Fin 131072 → EReal) : ∑ n, f n = ∑ t ∈ Finset.range 16, runSum f t := by
  have h1 : ∑ n, f n = ∑ n ∈ Finset.range 131072, ext f n := by
    rw [← Fin.sum_univ_eq_sum_range (fun n => ext f n) 131072]
    exact Finset.sum_congr rfl fun n _ => (ext_val f n).symm
  rw [h1, show (131072 : ℕ) = 16 * 8192 from rfl, sum_range_mul (ext f) 8192 16]
  refine Finset.sum_congr rfl fun t _ => ?_
  unfold runSum
  rw [← Fin.sum_univ_eq_sum_range (fun j => ext f (8192 * t + j)) 8192]

/-- Sixteen runs are the first eight and the second eight. -/
theorem sum_runs_split (g : ℕ → EReal) :
    ∑ t ∈ Finset.range 16, g t = ∑ s ∈ Finset.range 8, g (0 + s) + ∑ s ∈ Finset.range 8, g (8 + s) := by
  rw [show (16 : ℕ) = 8 + 8 from rfl, Finset.sum_range_add]
  simp only [Nat.zero_add]

end Cert.PixelLoss

end
-- ==== Proof.RefValue.lean ====
/-
  The reference program's result is the loss of Spec.lean, when every label is one of 0, …, 19.

  Read one operation at a time: at pixel n the label word selects its class (the ignore value 19 replaced by 0); under the
  hypothesis that word lies in 0 … 18, so the index adjustment for negative indices is not taken, the range test
  0 ≤ index ≤ 18 is 1 everywhere, and the gather reads row n of the similarity matrix at the label's column. The squared
  distance (1 − similarity)² is multiplied by the "label ≠ 19" bit as a float, which is Spec's case split, and the two
  totals over the flattened pixels are re-indexed by the pixel number.
-/
import proofs.«427641_j22436909154962_3_alg».proof.Proof.RefRead
import proofs.«427641_j22436909154962_3_alg».proof.Proof.Spec
import Idealize.ShloMosaic.Lib.Affine
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.ReferenceIdeal.ReadCopy

/-! ## Words -/

section Words

/-- A word at most 18 reads the same signed and unsigned. -/
theorem toInt_small {v : BitVec 32} (h : v.toNat ≤ 18) : v.toInt = (v.toNat : Int) :=
  BitVec.toInt_eq_toNat_of_lt (by omega)

/-- The label with the ignore value 19 replaced by 0. -/
def safe (w : BitVec 32) : BitVec 32 := Scalar.select (IntOp.cmpi .ne w 19#32) w 0#32

/-- A negative index counted from the end of the 19 classes. -/
def wrapped (v : BitVec 32) : BitVec 32 := Scalar.select (IntOp.cmpi .slt v 0#32) (IntOp.addi v 19#32) v

theorem safe_of_ne {w : BitVec 32} (h : w ≠ 19#32) : safe w = w := by
  unfold safe
  rw [IntOp.cmpi_ne.2 h]
  exact select_one _ _

theorem safe_ignore : safe 19#32 = 0#32 := by decide

theorem safe_le {w : BitVec 32} (h : w.toNat ≤ 19) : (safe w).toNat ≤ 18 := by
  by_cases hw : w = 19#32
  · subst hw; rw [safe_ignore]; decide
  · rw [safe_of_ne hw]
    have : w.toNat ≠ 19 := fun e => hw (BitVec.eq_of_toNat_eq e)
    omega

theorem wrapped_of_small {v : BitVec 32} (h : v.toNat ≤ 18) : wrapped v = v := by
  unfold wrapped
  have hn : ¬ IntOp.cmpi .slt v 0#32 = 1#1 := by
    rw [IntOp.cmpi_slt, toInt_small h, show (0#32 : BitVec 32).toInt = 0 from by decide]
    omega
  rw [eq_zero_of_ne_one hn]
  exact select_zero _ _

theorem sge_small {v : BitVec 32} (h : v.toNat ≤ 18) : IntOp.cmpi .sge v 0#32 = 1#1 := by
  rw [IntOp.cmpi_sge, toInt_small h, show (0#32 : BitVec 32).toInt = 0 from by decide]
  omega

theorem sle_small {v : BitVec 32} (h : v.toNat ≤ 18) : IntOp.cmpi .sle v 18#32 = 1#1 := by
  rw [IntOp.cmpi_sle, toInt_small h, show (18#32 : BitVec 32).toInt = 18 from by decide]
  omega

theorem clamp_small {v : BitVec 32} (h : v.toNat ≤ 18) : min v.toInt.toNat 18 = v.toNat := by
  rw [toInt_small h, Int.toNat_natCast]
  omega

/-- A left fold by `and` from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_one f hf l

end Words

section Gather
variable {α : Type}

/-- The start-indices index `[n, 0, 0]` of result index `(n, 0)`. -/
abbrev gIdx (y : S131072x1.Idx) : S131072x1x1.Idx :=
  ix3 (⟨(y 0).val, idx2_lt0 y⟩ : Fin 131072) (0 : Fin 1) (0 : Fin 1)

/-- The gather of one column per row, read at `(n, 0)`: row `n` of the operand at the start index `idx[n, 0, 0]`,
    read signed and clamped into `[0, 18]`. -/
theorem gather_apply {w : Nat} (x : S131072x19.Idx → α) (idx : IVec S131072x1x1 w) (y : S131072x1.Idx) :
    Host.gather gather_S131072x19_S131072x1x1_S131072x1_n_1_0_0_1_2_11 x idx y
      = x (ix2 (⟨(y 0).val, idx2_lt0 y⟩ : Fin 131072)
            (⟨min (idx (gIdx y)).toInt.toNat 18, by omega⟩ : Fin 19)) := by
  unfold Host.gather
  congr 1
  funext a
  refine Fin.ext ?_
  match a with
  | ⟨0, _⟩ =>
    show gather_S131072x19_S131072x1x1_S131072x1_n_1_0_0_1_2_11.start y idx 0
      + gather_S131072x19_S131072x1x1_S131072x1_n_1_0_0_1_2_11.batchCoord y 0
      + gather_S131072x19_S131072x1x1_S131072x1_n_1_0_0_1_2_11.offCoord y 0 = (y 0).val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S131072x19_S131072x1x1_S131072x1_n_1_0_0_1_2_11.operandBatchingDims
      from List.mem_singleton.mpr rfl)]
    rfl
  | ⟨1, _⟩ =>
    show gather_S131072x19_S131072x1x1_S131072x1_n_1_0_0_1_2_11.start y idx 1
      + gather_S131072x19_S131072x1x1_S131072x1_n_1_0_0_1_2_11.batchCoord y 1
      + gather_S131072x19_S131072x1x1_S131072x1_n_1_0_0_1_2_11.offCoord y 1 = min (idx (gIdx y)).toInt.toNat 18
    rw [GatherDims.batchCoord_eq_zero _ _ _
        (show (1 : Fin 2) ∉ gather_S131072x19_S131072x1x1_S131072x1_n_1_0_0_1_2_11.operandBatchingDims by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S131072x19_S131072x1x1_S131072x1_n_1_0_0_1_2_11.startIndexMap
      from List.mem_singleton.mpr rfl)]
    have hsi : gather_S131072x19_S131072x1x1_S131072x1_n_1_0_0_1_2_11.siIdx y
        ⟨List.idxOf (1 : Fin 2) gather_S131072x19_S131072x1x1_S131072x1_n_1_0_0_1_2_11.startIndexMap,
          List.idxOf_lt_length_iff.2 (List.mem_singleton.mpr rfl)⟩ = gIdx y := by
      funext b; refine Fin.ext ?_
      match b with
      | ⟨0, _⟩ => rfl
      | ⟨1, _⟩ => have h1 := idx2_lt1 y; show (y 1).val = 0; omega
      | ⟨2, _⟩ => rfl
    rw [hsi]
    rfl
end Gather

/-! ## The index word of the gather, and its range test -/

section Index
variable (L : (⟨S8x128x128, .i32⟩ : BufTy).Contents (Elt Ideal))

/-- The select on "label ≠ 19" at a pixel is `safe` of the label there. -/
theorem v7_eq (k : S131072.Idx) : val_main_v7 (F := Ideal) L k = safe (L (idx_main_v2 k)) := by
  rw [val_main_v7_apply, val_main_v4_apply, val_main_v2_apply, val_main_v3_apply, val_main_call0_v1_apply]
  rfl

/-- The start-index word at `[n, 0, 0]`. -/
theorem v5_eq (i : S131072x1x1.Idx) :
    val_main_call1_v5 (F := Ideal) L i = wrapped (safe (L (idx_main_v2 (idx_main_v8 (idx_main_call1_v5 i))))) := by
  rw [val_main_call1_v5_apply, val_main_call1_v4_apply, val_main_call1_v1_apply, val_main_call1_v3_apply,
    val_main_v8_apply, v7_eq, val_main_call1_v0_apply, val_main_call1_v2_apply]
  rfl

variable (hL : ∀ i, (L i).toNat ≤ 19)
include hL

/-- With every label in 0 … 19 the start-index word is `safe` of the label. -/
theorem v5_eq_safe (i : S131072x1x1.Idx) :
    val_main_call1_v5 (F := Ideal) L i = safe (L (idx_main_v2 (idx_main_v8 (idx_main_call1_v5 i)))) := by
  rw [v5_eq, wrapped_of_small (safe_le (hL _))]

/-- The range test 0 ≤ index ≤ 18 holds at every start index. -/
theorem v11_one (i : S131072x1x1.Idx) : val_main_call1_v11 (F := Ideal) L i = 1#1 := by
  rw [val_main_call1_v11_apply, val_main_call1_v7_apply, val_main_call1_v10_apply, val_main_call1_v6_apply,
    val_main_call1_v9_apply, val_main_call1_v8_apply, v5_eq_safe L hL]
  exact IntOp.andi_eq_one.2 ⟨sge_small (safe_le (hL _)), sle_small (safe_le (hL _))⟩

/-- So its `and` over the unit axis is 1 at every row. -/
theorem v12_one (j : S131072x1.Idx) : val_main_call1_v12 (F := Ideal) L j = 1#1 := by
  unfold val_main_call1_v12
  rw [Host.reduce_eq_foldl]
  exact foldl_andi_one _ (v11_one L hL) _

end Index

/-! ## One pixel -/

section Pixel
open Cert.PixelLoss
variable (E : (⟨S8x256x128x128, .f32⟩ : BufTy).Contents (Elt Ideal)) (L : (⟨S8x128x128, .i32⟩ : BufTy).Contents (Elt Ideal))
  (Q : (⟨S19x256, .f32⟩ : BufTy).Contents (Elt Ideal))

/-- The flattened label image at pixel `n` is read at the pixel's batch, row and column. -/
theorem idx_v2_pix (n : Fin 131072) : idx_main_v2 (ix1 n) = ix3 (pixB n) (pixH n) (pixW n) :=
  funext fun a => match a with
    | ⟨0, _⟩ => rfl
    | ⟨1, _⟩ => rfl
    | ⟨2, _⟩ => rfl

/-- So is the gather's start index for row `n`. -/
theorem idx_chain_pix (n : Fin 131072) :
    idx_main_v2 (idx_main_v8 (idx_main_call1_v5 (gIdx (idx_main_v10 (ix1 n))))) = ix3 (pixB n) (pixH n) (pixW n) := by
  have hn := n.isLt
  funext a; refine Fin.ext ?_
  match a with
  | ⟨0, _⟩ => show ((n.val / 1 * 1 + 0) * 1 + 0) / 1 / 16384 = n.val / 16384; omega
  | ⟨1, _⟩ => show ((n.val / 1 * 1 + 0) * 1 + 0) / 1 / 128 % 128 = n.val / 128 % 128; omega
  | ⟨2, _⟩ => show ((n.val / 1 * 1 + 0) * 1 + 0) / 1 % 128 = n.val % 128; omega

/-- Row `n`, column `c` of the product of the flattened embedding with the transposed prototypes is the similarity of
    pixel `n` with class `c`. -/
theorem sim_eq (n : Fin 131072) (c : Fin 19) : val_main_v6 (F := Ideal) E Q (ix2 n c) = sim E Q n c := by
  rw [val_main_v6_apply]
  unfold sim
  refine Finset.sum_congr rfl fun d _ => ?_
  rw [val_main_v1_apply, val_main_v0_apply, val_main_v5_apply, mul_comm]
  have hn := n.isLt
  have hd := d.isLt
  have e1 : idx_main_v5 (ridx_main_v6 (ix2 n c) d) = ix2 c d :=
    funext fun a => match a with
      | ⟨0, _⟩ => rfl
      | ⟨1, _⟩ => rfl
  have e2 : idx_main_v0 (idx_main_v1 (lidx_main_v6 (ix2 n c) d)) = ix4 (pixB n) d (pixH n) (pixW n) := by
    funext a; refine Fin.ext ?_
    match a with
    | ⟨0, _⟩ => show (n.val * 256 + d.val) / 4194304 = n.val / 16384; omega
    | ⟨1, _⟩ => show (n.val * 256 + d.val) % 256 = d.val; omega
    | ⟨2, _⟩ => show (n.val * 256 + d.val) / 32768 % 128 = n.val / 128 % 128; omega
    | ⟨3, _⟩ => show (n.val * 256 + d.val) / 256 % 128 = n.val % 128; omega
  rw [e1, e2]

end Pixel

section PixelValue
open Cert.PixelLoss
variable (E : (⟨S8x256x128x128, .f32⟩ : BufTy).Contents (Elt Ideal)) (L : (⟨S8x128x128, .i32⟩ : BufTy).Contents (Elt Ideal))
  (Q : (⟨S19x256, .f32⟩ : BufTy).Contents (Elt Ideal))

/-- The "label ≠ 19" bit at pixel `n`. -/
theorem v4_pix (n : Fin 131072) : val_main_v4 (F := Ideal) L (ix1 n) = IntOp.cmpi .ne (label L n) 19#32 := by
  rw [val_main_v4_apply, val_main_v2_apply, val_main_v3_apply, idx_v2_pix]
  rfl

/-- That bit as a float is what pixel `n` adds to the denominator. -/
theorem valid_eq (n : Fin 131072) : val_main_v14 (F := Ideal) L (ix1 n) = validTerm L n := by
  rw [val_main_v14_apply, v4_pix]
  unfold validTerm
  by_cases hv : label L n = 19#32
  · rw [if_pos hv, hv, show IntOp.cmpi .ne (19#32 : BitVec 32) 19#32 = 0#1 from by decide]
    show (((0 : ℕ) : ℝ) : EReal) = 0
    rw [Nat.cast_zero, EReal.coe_zero]
  · rw [if_neg hv, IntOp.cmpi_ne.2 hv]
    show (((1 : ℕ) : ℝ) : EReal) = 1
    rw [Nat.cast_one, EReal.coe_one]

variable (hL : ∀ i, (L i).toNat ≤ 19)
include hL

/-- At a pixel whose label is a class, the gathered entry is the similarity with that class. -/
theorem logit_eq (n : Fin 131072) (hv : label L n ≠ 19#32) :
    val_main_v10 (F := Ideal) E L Q (ix1 n) = sim E Q n (cls (label L n)) := by
  have hv' : L (ix3 (pixB n) (pixH n) (pixW n)) ≠ 19#32 := hv
  have h19 := hL (ix3 (pixB n) (pixH n) (pixW n))
  have h18 : (L (ix3 (pixB n) (pixH n) (pixW n))).toNat ≤ 18 := by
    have : (L (ix3 (pixB n) (pixH n) (pixW n))).toNat ≠ 19 := fun e => hv' (BitVec.eq_of_toNat_eq e)
    omega
  rw [val_main_v10_apply, val_main_v9_apply, v12_one L hL, select_one]
  unfold val_main_call1_v13
  rw [gather_apply]
  refine (congrArg (val_main_v6 (F := Ideal) E Q) ?_).trans (sim_eq E Q n (cls (label L n)))
  funext a; refine Fin.ext ?_
  match a with
  | ⟨0, _⟩ => show n.val / 1 = n.val; exact Nat.div_one _
  | ⟨1, _⟩ =>
    show min (val_main_call1_v5 (F := Ideal) L (gIdx (idx_main_v10 (ix1 n)))).toInt.toNat 18 = (cls (label L n)).val
    rw [v5_eq_safe L hL, idx_chain_pix, safe_of_ne hv', clamp_small h18]
    exact (cls_val_of_le h18).symm

/-- What pixel `n` adds to the numerator. -/
theorem loss_eq (n : Fin 131072) : val_main_v15 (F := Ideal) E L Q (ix1 n) = lossTerm E L Q n := by
  rw [val_main_v15_apply]
  show val_main_v13 (F := Ideal) E L Q (ix1 n) * val_main_v14 (F := Ideal) L (ix1 n) = _
  rw [valid_eq]
  unfold lossTerm validTerm
  by_cases hv : label L n = 19#32
  · rw [if_pos hv, if_pos hv, mul_zero]
  · rw [if_neg hv, if_neg hv, mul_one, val_main_v13_apply, val_main_v12_apply, val_main_v11_apply, val_main_cst_apply,
      logit_eq E L Q hL n hv]
    rfl

end PixelValue

/-! ## The result -/

/-- The pixels, as the indices of the flattened arrays. -/
def pixEquiv : Fin 131072 ≃ S131072.Idx where
  toFun n := ix1 n
  invFun j := ⟨(j 0).val, (j 0).isLt⟩
  left_inv n := rfl
  right_inv j := (eq_ix1 j).symm

/-- The reference's result stage, at its one index, is the loss. -/
theorem ref_value (E : (⟨S8x256x128x128, .f32⟩ : BufTy).Contents (Elt Ideal)) (L : (⟨S8x128x128, .i32⟩ : BufTy).Contents (Elt Ideal))
    (Q : (⟨S19x256, .f32⟩ : BufTy).Contents (Elt Ideal)) (hL : ∀ i, (L i).toNat ≤ 19) (i : S_.Idx) :
    val_main_v18 (F := Ideal) E L Q i = Cert.PixelLoss.loss E L Q := by
  rw [val_main_v18_apply, val_main_v16_apply, val_main_v17_apply, val_main_cst_1_apply, val_main_cst_2_apply]
  unfold Cert.PixelLoss.loss
  show Ideal.div (Ideal.ofBits .f32 0x00000000#32 + _) (Ideal.ofBits .f32 0x00000000#32 + _) = _
  rw [Ideal.ofBits_zero_f32, zero_add, zero_add]
  have e1 : ∑ j : S131072.Idx, val_main_v15 (F := Ideal) E L Q j = ∑ n, Cert.PixelLoss.lossTerm E L Q n :=
    (Fintype.sum_equiv pixEquiv (fun n => Cert.PixelLoss.lossTerm E L Q n) (fun j => val_main_v15 (F := Ideal) E L Q j)
      (fun n => (loss_eq E L Q hL n).symm)).symm
  have e2 : ∑ j : S131072.Idx, val_main_v14 (F := Ideal) L j = ∑ n, Cert.PixelLoss.validTerm L n :=
    (Fintype.sum_equiv pixEquiv (fun n => Cert.PixelLoss.validTerm L n) (fun j => val_main_v14 (F := Ideal) L j)
      (fun n => (valid_eq L n).symm)).symm
  rw [e1, e2]

end Cert.ReferenceIdeal.RefValue

end
-- ==== Proof.PreRange.lean ====
/-
  Reading the label range out of the stated precondition: the precondition's last conjunct says that every label word,
  read as a signed integer, is at least 0 and at most 19; so as a natural number it is at most 19.
-/
import proofs.«427641_j22436909154962_3_alg».proof.Pre_finite_inputs
import Idealize.ShloMosaic.Lib.StableHlo.Predicate
import Idealize.ShloMosaic.Lib.ReduceAll
import Idealize.ShloMosaic.Lib.ValueIdx

noncomputable section

namespace Cert.PixelLoss.Pre

open Idealize.ShloMosaic

variable {F : FTy → Type} [FloatOps F] [Cert.Pre_finite_inputs.Facts]

/-- A 32-bit word whose signed value lies in [0, 19] has unsigned value at most 19. -/
theorem toNat_le_of_toInt_range {a : BitVec 32} (h0 : (0 : Int) ≤ a.toInt) (h19 : a.toInt ≤ 19) : a.toNat ≤ 19 := by
  have hlt : 2 * a.toNat < 2 ^ 32 := BitVec.toInt_pos_iff.1 h0
  have he : a.toInt = a.toNat := BitVec.toInt_eq_toNat_of_lt (by omega)
  omega

/-- Under the precondition every label is one of 0, …, 19. -/
theorem label_le_of_pre (E : FVec F Cert.Pre_finite_inputs.S8x256x128x128 .f32) (L : IVec Cert.Pre_finite_inputs.S8x128x128 32)
    (Q : FVec F Cert.Pre_finite_inputs.S19x256 .f32)
    (h : Cert.Pre_finite_inputs.fn (F := F) E L Q = fun _ => 1#1) (i : Cert.Pre_finite_inputs.S8x128x128.Idx) :
    (L i).toNat ≤ 19 := by
  have h0 := congrFun h ValueIdx.ix0
  dsimp only [Cert.Pre_finite_inputs.fn] at h0
  -- the predicate is a conjunction; its second conjunct is the and-reduction over all label indices
  have h14 := (IntOp.andi_eq_one.1 h0).2
  -- the rank-0 shape has one index, so the reduced array is 1 at every label index
  haveI : Subsingleton Cert.Pre_finite_inputs.S_.Idx := ⟨fun a b => funext fun d => d.elim0⟩
  have hi := Host.reduce_andi_all _ _ _ _ _ h14 i
  -- and there both signed comparisons hold
  obtain ⟨hge, hle⟩ := IntOp.andi_eq_one.1 hi
  have hge' : IntOp.cmpi .sge (L i) 0#32 = 1#1 := hge
  have hle' : IntOp.cmpi .sle (L i) 19#32 = 1#1 := hle
  have h0i : (0 : Int) ≤ (L i).toInt := by
    have := IntOp.cmpi_sge.1 hge'
    rwa [show (0#32 : BitVec 32).toInt = 0 from by decide] at this
  have h19i : (L i).toInt ≤ 19 := by
    have := IntOp.cmpi_sle.1 hle'
    rwa [show (19#32 : BitVec 32).toInt = 19 from by decide] at this
  exact toNat_le_of_toInt_range h0i h19i

end Cert.PixelLoss.Pre

end
-- ==== Proof.Pieces.lean ====
/-
  What one run of the kernel body leaves behind, as values.  The body keeps two 1×1 accumulators across the grid: the
  running sum of the masked squared errors and the running count of the pixels that are not ignored.  At the first
  point of a core's share (case A) it stores zero into both and then adds the tile's partial sum and partial count to
  what it reads back; at every later point (cases B and C) it adds them to what the point before left; at the last
  point of a core's share (case C) it also writes the output block, which holds the sum at row 0 and the count at row 1
  of column 0 and zero elsewhere.  Each lemma says that the contents found for a buffer are the corresponding payload of
  the tile's three input blocks: every store covers its whole buffer at offset zero, and every load reads a whole
  buffer, or reads back the covering store before it.
-/
import proofs.«427641_j22436909154962_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a core's share: the sum accumulator ends at zero plus the tile's partial sum. -/
theorem sumA (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : cond0_0 i) (hc1 : ¬cond0_1 i)
    (x0 : Vec F S1x256x8192 .f32) (x1 : Vec F S1x1x8192 .i32) (x2 : Vec F S19x256 .f32) :
    sout0_A_0 c i a3 h3 a4 h4 a5 h5 a6 h6 a7 h7 a8 h8 hc0 hc1 x0 x1 x2 = k0_pay1 (k0_pay8 x0 x2 x1) (k0_pay4 (F := F)) := by
  unfold sout0_A_0
  rw [View.read_writes_eq_canon _ _ _ (scover0_A_0 c i a3 h3 a4 h4 a5 h5 a6 h6 a7 h7 a8 h8 hc0 hc1 x0 x1 x2)]
  unfold kernelRun0_A
  dsimp only
  sl_unfold_words
  rw [View.canon_cons_unit_zero (S := S1x1) hz2, View.readCov_unit_zero (S := S1x1) _ hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

/-- First point of a core's share: the count accumulator ends at zero plus the tile's partial count. -/
theorem cntA (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : cond0_0 i) (hc1 : ¬cond0_1 i)
    (x0 : Vec F S1x256x8192 .f32) (x1 : Vec F S1x1x8192 .i32) (x2 : Vec F S19x256 .f32) :
    sout0_A_1 c i a3 h3 a4 h4 a5 h5 a6 h6 a7 h7 a8 h8 hc0 hc1 x0 x1 x2 = k0_pay2 (k0_pay9 x1) (k0_pay5 (F := F)) := by
  unfold sout0_A_1
  rw [View.read_writes_eq_canon _ _ _ (scover0_A_1 c i a3 h3 a4 h4 a5 h5 a6 h6 a7 h7 a8 h8 hc0 hc1 x0 x1 x2)]
  unfold kernelRun0_A
  dsimp only
  sl_unfold_words
  rw [View.canon_cons_unit_zero (S := S1x1) hz2, View.readCov_unit_zero (S := S1x1) _ hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

/-- A middle point: the sum accumulator ends at what the point before left plus the tile's partial sum. -/
theorem sumB (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : ¬cond0_0 i) (hc1 : ¬cond0_1 i)
    (x0 : Vec F S1x256x8192 .f32) (x1 : Vec F S1x1x8192 .i32) (x2 : Vec F S19x256 .f32) (xs0 xs1 : Vec F S1x1 .f32) :
    sout0_B_0 c i a3 h3 a4 h4 a5 h5 a6 h6 a7 h7 a8 h8 hc0 hc1 x0 x1 x2 xs0 xs1 = k0_pay1 (k0_pay8 x0 x2 x1) xs0 := by
  unfold sout0_B_0
  rw [View.read_writes_eq_canon _ _ _ (scover0_B_0 c i a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

/-- A middle point: the count accumulator ends at what the point before left plus the tile's partial count. -/
theorem cntB (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : ¬cond0_0 i) (hc1 : ¬cond0_1 i)
    (x0 : Vec F S1x256x8192 .f32) (x1 : Vec F S1x1x8192 .i32) (x2 : Vec F S19x256 .f32) (xs0 xs1 : Vec F S1x1 .f32) :
    sout0_B_1 c i a3 h3 a4 h4 a5 h5 a6 h6 a7 h7 a8 h8 hc0 hc1 x0 x1 x2 xs0 xs1 = k0_pay2 (k0_pay9 x1) xs1 := by
  unfold sout0_B_1
  rw [View.read_writes_eq_canon _ _ _ (scover0_B_1 c i a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

/-- Last point of a core's share: the sum accumulator as at a middle point. -/
theorem sumC (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : ¬cond0_0 i) (hc1 : cond0_1 i)
    (x0 : Vec F S1x256x8192 .f32) (x1 : Vec F S1x1x8192 .i32) (x2 : Vec F S19x256 .f32) (xs0 xs1 : Vec F S1x1 .f32) :
    sout0_C_0 c i a3 h3 a4 h4 a5 h5 a6 h6 a7 h7 a8 h8 hc0 hc1 x0 x1 x2 xs0 xs1 = k0_pay1 (k0_pay8 x0 x2 x1) xs0 := by
  unfold sout0_C_0
  rw [View.read_writes_eq_canon _ _ _ (scover0_C_0 c i a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

/-- Last point of a core's share: the count accumulator as at a middle point. -/
theorem cntC (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : ¬cond0_0 i) (hc1 : cond0_1 i)
    (x0 : Vec F S1x256x8192 .f32) (x1 : Vec F S1x1x8192 .i32) (x2 : Vec F S19x256 .f32) (xs0 xs1 : Vec F S1x1 .f32) :
    sout0_C_1 c i a3 h3 a4 h4 a5 h5 a6 h6 a7 h7 a8 h8 hc0 hc1 x0 x1 x2 xs0 xs1 = k0_pay2 (k0_pay9 x1) xs1 := by
  unfold sout0_C_1
  rw [View.read_writes_eq_canon _ _ _ (scover0_C_1 c i a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

/-- Last point of a core's share: the output block is laid out from the two accumulators as this point leaves them. -/
theorem blockC (c : Dev nD) (i : grid0.Coords) (a3 : Memref sig .tc .vmem S1x256x8192 .f32) (h3 : a3.IsWhole)
    (a4 : Memref sig .tc .vmem S1x1x8192 .i32) (h4 : a4.IsWhole) (a5 : Memref sig .tc .vmem S19x256 .f32) (h5 : a5.IsWhole)
    (a6 : Memref sig .tc .vmem S8x128 .f32) (h6 : a6.IsWhole) (a7 : Memref sig .tc .vmem S1x1 .f32) (h7 : a7.IsWhole)
    (a8 : Memref sig .tc .vmem S1x1 .f32) (h8 : a8.IsWhole) (hc0 : ¬cond0_0 i) (hc1 : cond0_1 i)
    (x0 : Vec F S1x256x8192 .f32) (x1 : Vec F S1x1x8192 .i32) (x2 : Vec F S19x256 .f32) (xs0 xs1 : Vec F S1x1 .f32) :
    out0_C_3 c i a3 h3 a4 h4 a5 h5 a6 h6 a7 h7 a8 h8 hc0 hc1 x0 x1 x2 xs0 xs1 = k0_pay3 (k0_pay1 (k0_pay8 x0 x2 x1) xs0) (k0_pay2 (k0_pay9 x1) xs1) := by
  unfold out0_C_3
  rw [View.read_writes_eq_canon _ _ _ (cover0_C_3 c i a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h3.read_unread, h4.read_unread, h5.read_unread, h7.read_unread, h8.read_unread,
    View.readCov_unit_zero (S := S1x1) _ hz2,
    View.ld_unit_zero (S := S1x256x8192) hz3, View.ld_unit_zero (S := S1x1x8192) hz3, View.ld_unit_zero (S := S19x256) hz2,
    View.ld_unit_zero (S := S1x1) hz2]

end Cert.KernelIdeal.Pieces

end
-- ==== Proof.Fold.lean ====
/-
  The two accumulators over the grid.  The 16 grid points are visited in order; points 0 … 7 are one core's share and
  points 8 … 15 the other's.  At a point whose number is a multiple of 8 the accumulators restart from zero; at every
  other point they continue from what the point before left.  So after point 8q + s the sum accumulator holds zero plus
  the partial sums of the tiles 8q, …, 8q + s, added in that order, and likewise the count accumulator; and at the last
  point of a share (8q + 7) the output block is laid out from the two accumulators as that point leaves them.
-/
import proofs.«427641_j22436909154962_3_alg».proof.Proof.Pieces
import Idealize.ShloMosaic.Lib.Pipeline.Value

noncomputable section

open Idealize.ShloMosaic Idealize.ShloMosaic.TcCoe Idealize.SL.Sem

namespace Cert.KernelIdeal.Fold

open Cert.KernelIdeal Cert.KernelIdeal.Gen Cert.KernelIdeal.Pieces

variable {F : FTy → Type} [FloatOps F]
variable (m : (ℓ : Loc nD τ sig) → Buf (Elt F) ℓ)

/-- The three input blocks of grid point t, under their literal types: the embedding tile, the label tile, the prototypes. -/
abbrev embBlk (c : Dev nD) (t : Fin cfg0.N) : Vec F S1x256x8192 .f32 := iblk m c 0 t
abbrev lblBlk (c : Dev nD) (t : Fin cfg0.N) : Vec F S1x1x8192 .i32 := iblk m c 1 t
abbrev protoBlk (c : Dev nD) (t : Fin cfg0.N) : Vec F S19x256 .f32 := iblk m c 2 t

/-- One point's update of the sum accumulator: what it held plus the tile's partial sum. -/
def sumStep (c : Dev nD) (n : ℕ) (h : n < cfg0.N) (acc : Vec F S1x1 .f32) : Vec F S1x1 .f32 :=
  k0_pay1 (k0_pay8 (embBlk m c ⟨n, h⟩) (protoBlk m c ⟨n, h⟩) (lblBlk m c ⟨n, h⟩)) acc

/-- One point's update of the count accumulator: what it held plus the tile's partial count. -/
def cntStep (c : Dev nD) (n : ℕ) (h : n < cfg0.N) (acc : Vec F S1x1 .f32) : Vec F S1x1 .f32 :=
  k0_pay2 (k0_pay9 (lblBlk m c ⟨n, h⟩)) acc

/-- What the sum accumulator and the count accumulator hold after point n. -/
def sumAt (c : Dev nD) (n : ℕ) (h : n < cfg0.N) : Vec F S1x1 .f32 := (outsAt0 m c n h).2.1
def cntAt (c : Dev nD) (n : ℕ) (h : n < cfg0.N) : Vec F S1x1 .f32 := (outsAt0 m c n h).2.2

theorem sum_reset (c : Dev nD) (n : ℕ) (h : n < cfg0.N) (h0 : n % 8 = 0) :
    sumAt m c n h = sumStep m c n h (k0_pay4 (F := F)) := by
  have h1 : ¬n % 8 = 7 := by omega
  unfold sumAt sumStep
  rw [outsAt0_A m c ⟨n, h⟩ h0 h1]
  dsimp only
  exact sumA (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

theorem cnt_reset (c : Dev nD) (n : ℕ) (h : n < cfg0.N) (h0 : n % 8 = 0) :
    cntAt m c n h = cntStep m c n h (k0_pay5 (F := F)) := by
  have h1 : ¬n % 8 = 7 := by omega
  unfold cntAt cntStep
  rw [outsAt0_A m c ⟨n, h⟩ h0 h1]
  dsimp only
  exact cntA (F := F) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

theorem sum_step (c : Dev nD) (n : ℕ) (h : n + 1 < cfg0.N) (h0 : ¬(n + 1) % 8 = 0) :
    sumAt m c (n + 1) h = sumStep m c (n + 1) h (sumAt m c n (Nat.lt_of_succ_lt h)) := by
  unfold sumAt sumStep
  by_cases h1 : (n + 1) % 8 = 7
  · rw [outsAt0_C m c ⟨n + 1, h⟩ h0 h1]
    dsimp only
    exact sumC (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2
  · rw [outsAt0_B m c ⟨n + 1, h⟩ h0 h1]
    dsimp only
    exact sumB (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2

theorem cnt_step (c : Dev nD) (n : ℕ) (h : n + 1 < cfg0.N) (h0 : ¬(n + 1) % 8 = 0) :
    cntAt m c (n + 1) h = cntStep m c (n + 1) h (cntAt m c n (Nat.lt_of_succ_lt h)) := by
  unfold cntAt cntStep
  by_cases h1 : (n + 1) % 8 = 7
  · rw [outsAt0_C m c ⟨n + 1, h⟩ h0 h1]
    dsimp only
    exact cntC (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2
  · rw [outsAt0_B m c ⟨n + 1, h⟩ h0 h1]
    dsimp only
    exact cntB (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2

/-- At the last point of a share the output block is laid out from the two accumulators as that point leaves them. -/
theorem block_last (c : Dev nD) (n : ℕ) (h : n + 1 < cfg0.N) (h1 : (n + 1) % 8 = 7) :
    (outsAt0 m c (n + 1) h).1 = k0_pay3 (sumAt m c (n + 1) h) (cntAt m c (n + 1) h) := by
  have h0 : ¬(n + 1) % 8 = 0 := by omega
  rw [sum_step m c n h h0, cnt_step m c n h h0]
  unfold sumStep cntStep sumAt cntAt
  rw [outsAt0_C m c ⟨n + 1, h⟩ h0 h1]
  dsimp only
  exact blockC (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.1 (outsAt0 m c n (Nat.lt_of_succ_lt h)).2.2

/-- The sum accumulator after point 8q + j (j < 8) is the fold of the steps from the start of share q. -/
theorem sumAt_share (c : Dev nD) (q j : ℕ) (hj : j < 8) (h : 8 * q + j < cfg0.N) :
    sumAt m c (8 * q + j) h = Pipeline.accAt (fun n h => sumStep m c n h (k0_pay4 (F := F))) (fun n h acc => sumStep m c n h acc) (8 * q) j h :=
  Pipeline.eq_accAt (fun n h => sumAt m c n h) 8 _ _ (fun n h h0 => sum_reset m c n h h0) (fun n h h0 => sum_step m c n h h0) q j hj h

/-- The count accumulator likewise. -/
theorem cntAt_share (c : Dev nD) (q j : ℕ) (hj : j < 8) (h : 8 * q + j < cfg0.N) :
    cntAt m c (8 * q + j) h = Pipeline.accAt (fun n h => cntStep m c n h (k0_pay5 (F := F))) (fun n h acc => cntStep m c n h acc) (8 * q) j h :=
  Pipeline.eq_accAt (fun n h => cntAt m c n h) 8 _ _ (fun n h h0 => cnt_reset m c n h h0) (fun n h h0 => cnt_step m c n h h0) q j hj h

end Cert.KernelIdeal.Fold

end
-- ==== Proof.PointValue.lean ====
/-
  The kernel body's payloads read at the ideal instance, at the entries the proof uses.
-/
import proofs.«427641_j22436909154962_3_alg».proof.Proof.Gen.KernelIdeal.Skeleton
import proofs.«427641_j22436909154962_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.PointValue

open Cert.KernelIdeal Cert.KernelIdeal.Gen Idealize.ShloMosaic Idealize.ShloMosaic.ValueIdx Cert.PixelLoss

/-- What lane j of a tile adds to the numerator, from the tile's three blocks: the embedding block x0 [1, 256, 8192],
    the prototype table x2 [19, 256] and the label block x1 [1, 1, 8192]. -/
def blkTerm (x0 : FVec Ideal S1x256x8192 .f32) (x2 : FVec Ideal S19x256 .f32) (x1 : IVec S1x1x8192 32) (j : Fin 8192) : EReal :=
  if x1 (ix3 0 0 j) = 19#32 then 0
  else (one - ∑ d : Fin 256, x2 (ix2 (cls (x1 (ix3 0 0 j))) d) * x0 (ix3 0 d j))
     * (one - ∑ d : Fin 256, x2 (ix2 (cls (x1 (ix3 0 0 j))) d) * x0 (ix3 0 d j))

/-- What lane j of a tile adds to the denominator. -/
def blkValid (x1 : IVec S1x1x8192 32) (j : Fin 8192) : EReal := if x1 (ix3 0 0 j) = 19#32 then 0 else 1

/-! ## The label block, the validity bit and the count -/

/-- The label block with its leading unit axis dropped reads lane j at (0, 0, j). -/
theorem pay6_apply (x1 : IVec S1x1x8192 32) (j : Fin 8192) : k0_pay6 (F := Ideal) x1 (ix2 0 j) = x1 (ix3 0 0 j) := by
  unfold k0_pay6
  exact shapeCast_1ab_ab_apply x1 shapeCasts_S1x1x8192_S1x8192 0 j

/-- The validity bit of lane j: the label is compared with the ignore value 19. -/
theorem pay7_apply (x1 : IVec S1x1x8192 32) (j : Fin 8192) :
    k0_pay7 (F := Ideal) x1 (ix2 0 j) = IntOp.cmpi .ne (x1 (ix3 0 0 j)) 19#32 := by
  show IntOp.cmpi .ne (k0_pay6 (F := Ideal) x1 (ix2 0 j)) 19#32 = _
  rw [pay6_apply]

theorem pay7_of_eq (x1 : IVec S1x1x8192 32) (j : Fin 8192) (h : x1 (ix3 0 0 j) = 19#32) :
    k0_pay7 (F := Ideal) x1 (ix2 0 j) = 0#1 := by
  rw [pay7_apply, h]; decide

theorem pay7_of_ne (x1 : IVec S1x1x8192 32) (j : Fin 8192) (h : ¬x1 (ix3 0 0 j) = 19#32) :
    k0_pay7 (F := Ideal) x1 (ix2 0 j) = 1#1 := by
  rw [pay7_apply]; exact IntOp.cmpi_ne.mpr h

/-- The validity bit widened to a word and converted to a float is 1 on a counted lane, 0 on an ignored one. -/
theorem pay9_apply (x1 : IVec S1x1x8192 32) (j : Fin 8192) : k0_pay9 (F := Ideal) x1 (ix2 0 j) = blkValid x1 j := by
  show FloatOps.sitofp (F := Ideal) .f32 ((k0_pay7 (F := Ideal) x1 (ix2 0 j)).setWidth 32) = _
  unfold blkValid
  by_cases hv : x1 (ix3 0 0 j) = 19#32
  · rw [pay7_of_eq x1 j hv, if_pos hv]
    show (((((0#1 : BitVec 1).setWidth 32).toInt : ℝ)) : EReal) = 0
    rw [show ((0#1 : BitVec 1).setWidth 32).toInt = 0 from by decide, Int.cast_zero, EReal.coe_zero]
  · rw [pay7_of_ne x1 j hv, if_neg hv]
    show (((((1#1 : BitVec 1).setWidth 32).toInt : ℝ)) : EReal) = 1
    rw [show ((1#1 : BitVec 1).setWidth 32).toInt = 1 from by decide, Int.cast_one, EReal.coe_one]

/-! ## The sum over the 8192 lanes -/

/-- The one entry of the reduced [1] array with lane k put back is (0, k). -/
theorem lift_lane (h : S1x8192.Reduces [1] S1) (k : Fin (S1x8192.size 1)) :
    h.lift (ix1 (0 : Fin 1)) k = ix2 (0 : Fin 1) (⟨k.val, k.isLt⟩ : Fin 8192) := by
  funext c; apply Fin.ext
  fin_cases c <;> rfl

/-- The lane sum of a [1, 8192] array, recast [1] → [1, 1], is the sum of its 8192 entries. -/
theorem laneSum_apply (v : FVec Ideal S1x8192 .f32) :
    shapeCast S1x1 (multiReduction .add [1] S1 v 0x00000000#32 reduces_S1x8192_S1 (.inl rfl) rfl) shapeCasts_S1_S1x1 (ix2 0 0)
      = ∑ j : Fin 8192, v (ix2 0 j) := by
  refine (shapeCast_a_1a_apply _ shapeCasts_S1_S1x1 0 0).trans ?_
  refine (Ideal.multiReduction_add_single v 0x00000000#32 reduces_S1x8192_S1 (.inl rfl) rfl (ix1 0)).trans ?_
  refine Finset.sum_congr rfl fun j _ => ?_
  rw [lift_lane]
  rfl

/-! ## The output block -/

/-- The [1, 1] array broadcast to [8, 128] reads its one entry everywhere. -/
theorem bcast11_apply (v : FVec Ideal S1x1 .f32) (i : Fin 8) (j : Fin 128) :
    broadcastTo S8x128 v broadcasts_S1x1_S8x128 (ix2 i j) = v (ix2 0 0) :=
  broadcastTo_apply v broadcasts_S1x1_S8x128 (ix2 i j) (ix2 0 0) (fun a => match a with | ⟨0, _⟩ => rfl | ⟨1, _⟩ => rfl)

/-! ## The similarity table: the [19, 256] prototypes times the [256, 8192] block -/

theorem lhs_mm_0 (i : S19x8192.Idx) (q : dot_S19x256_S256x8192_S19x8192_1_0_0_1_n_n.contr.Idx) :
    (dot_S19x256_S256x8192_S19x8192_1_0_0_1_n_n.lhsIdx i q 0).val = (i 0).val := by
  unfold DotDims.lhsIdx
  rw [dif_neg (show ¬(0 : Fin S19x256.rank) ∈ dot_S19x256_S256x8192_S19x8192_1_0_0_1_n_n.lhsBatch by decide), dif_pos (show (0 : Fin S19x256.rank) ∈ dot_S19x256_S256x8192_S19x8192_1_0_0_1_n_n.lhsNonContracting by decide)]
  rfl
theorem lhs_mm_1 (i : S19x8192.Idx) (q : dot_S19x256_S256x8192_S19x8192_1_0_0_1_n_n.contr.Idx) :
    (dot_S19x256_S256x8192_S19x8192_1_0_0_1_n_n.lhsIdx i q 1).val = (q ⟨0, by decide⟩).val :=
  dot_S19x256_S256x8192_S19x8192_1_0_0_1_n_n.lhsIdx_val_of_single rfl i q
theorem rhs_mm_0 (i : S19x8192.Idx) (q : dot_S19x256_S256x8192_S19x8192_1_0_0_1_n_n.contr.Idx) :
    (dot_S19x256_S256x8192_S19x8192_1_0_0_1_n_n.rhsIdx i q 0).val = (q ⟨0, by decide⟩).val :=
  dot_S19x256_S256x8192_S19x8192_1_0_0_1_n_n.rhsIdx_val_of_single rfl i q
theorem rhs_mm_1 (i : S19x8192.Idx) (q : dot_S19x256_S256x8192_S19x8192_1_0_0_1_n_n.contr.Idx) :
    (dot_S19x256_S256x8192_S19x8192_1_0_0_1_n_n.rhsIdx i q 1).val = (i 1).val := by
  unfold DotDims.rhsIdx
  rw [dif_neg (show ¬(1 : Fin S256x8192.rank) ∈ dot_S19x256_S256x8192_S19x8192_1_0_0_1_n_n.rhsBatch by decide), dif_pos (show (1 : Fin S256x8192.rank) ∈ dot_S19x256_S256x8192_S19x8192_1_0_0_1_n_n.rhsNonContracting by decide)]
  rfl

/-- The matrix product into a zero accumulator, at (k, j): the inner product of row k with column j. -/
theorem matmul_ix2_apply (A : FVec Ideal S19x256 .f32) (B : FVec Ideal S256x8192 .f32) (k : Fin 19) (j : Fin 8192) :
    matmul dot_S19x256_S256x8192_S19x8192_1_0_0_1_n_n none A B (constant S19x8192 .f32 0x00000000#32) (ix2 k j)
      = ∑ d : Fin 256, A (ix2 k d) * B (ix2 d j) := by
  refine (Ideal.matmul_constant_zero_apply dot_S19x256_S256x8192_S19x8192_1_0_0_1_n_n none A B (ix2 k j)).trans ?_
  rw [← Equiv.sum_comp (ValueIdx.contrEquiv1 dot_S19x256_S256x8192_S19x8192_1_0_0_1_n_n 256 rfl rfl).symm]
  refine Finset.sum_congr rfl fun d _ => ?_
  have hk := ValueIdx.contrEquiv1_symm_val dot_S19x256_S256x8192_S19x8192_1_0_0_1_n_n 256 rfl rfl d
  have el : dot_S19x256_S256x8192_S19x8192_1_0_0_1_n_n.lhsIdx (ix2 k j) ((ValueIdx.contrEquiv1 dot_S19x256_S256x8192_S19x8192_1_0_0_1_n_n 256 rfl rfl).symm d) = ix2 k d := funext fun a => Fin.ext (by
    match a with
    | ⟨0, _⟩ => exact lhs_mm_0 _ _
    | ⟨1, _⟩ => exact (lhs_mm_1 _ _).trans hk)
  have er : dot_S19x256_S256x8192_S19x8192_1_0_0_1_n_n.rhsIdx (ix2 k j) ((ValueIdx.contrEquiv1 dot_S19x256_S256x8192_S19x8192_1_0_0_1_n_n 256 rfl rfl).symm d) = ix2 d j := funext fun a => Fin.ext (by
    match a with
    | ⟨0, _⟩ => exact (rhs_mm_0 _ _).trans hk
    | ⟨1, _⟩ => exact rhs_mm_1 _ _)
  rw [el, er]

/-- The table of similarities of the tile: class k against lane j. -/
def simTab (x0 : FVec Ideal S1x256x8192 .f32) (x2 : FVec Ideal S19x256 .f32) : FVec Ideal S19x8192 .f32 :=
  matmul dot_S19x256_S256x8192_S19x8192_1_0_0_1_n_n none x2 (shapeCast S256x8192 x0 shapeCasts_S1x256x8192_S256x8192) (constant S19x8192 .f32 0x00000000#32)

theorem simTab_apply (x0 : FVec Ideal S1x256x8192 .f32) (x2 : FVec Ideal S19x256 .f32) (k : Fin 19) (j : Fin 8192) :
    simTab x0 x2 (ix2 k j) = ∑ d : Fin 256, x2 (ix2 k d) * x0 (ix3 0 d j) := by
  unfold simTab
  refine (matmul_ix2_apply x2 _ k j).trans ?_
  refine Finset.sum_congr rfl fun d _ => ?_
  rw [shapeCast_1ab_ab_apply x0 shapeCasts_S1x256x8192_S256x8192 d j]

/-! ## The label made safe, and the one-hot selection of the label's row -/

/-- The label of each lane, 0 where the lane is ignored. -/
def safeLbl (x1 : IVec S1x1x8192 32) : IVec S1x8192 32 :=
  select (k0_pay7 (F := Ideal) x1) (k0_pay6 (F := Ideal) x1) (broadcast S1x8192 0#32)

theorem safeLbl_of_ne (x1 : IVec S1x1x8192 32) (j : Fin 8192) (hv : ¬x1 (ix3 0 0 j) = 19#32) :
    safeLbl x1 (ix2 0 j) = x1 (ix3 0 0 j) := by
  unfold safeLbl
  rw [select_apply, pay7_of_ne x1 j hv, select_one, pay6_apply]

/-- Among the 19 class words exactly the label's own equals a label word that is at most 18. -/
theorem word_eq_iff (w : BitVec 32) (hw : w.toNat ≤ 18) (k : Fin 19) : BitVec.ofNat 32 k.val = w ↔ k = cls w := by
  constructor
  · intro h
    apply Fin.ext
    rw [cls_val_of_le hw, ← h, BitVec.toNat_ofNat]
    have := k.isLt
    omega
  · intro h
    apply BitVec.eq_of_toNat_eq
    rw [BitVec.toNat_ofNat, h, cls_val_of_le hw]
    omega

/-- The similarity table masked to the row of each lane's safe label. -/
def oneHot (x1 : IVec S1x1x8192 32) (M : FVec Ideal S19x8192 .f32) : FVec Ideal S19x8192 .f32 :=
  select (cmpi .eq (iota .tc S19x8192 32 [0] iota_S19x8192_d0_w32) (broadcastTo S19x8192 (safeLbl x1) broadcasts_S1x8192_S19x8192))
    M (broadcast S19x8192 (Scalar.ofBits (F := Ideal) .f32 0x00000000#32))

theorem oneHot_apply (x1 : IVec S1x1x8192 32) (M : FVec Ideal S19x8192 .f32) (k : Fin 19) (j : Fin 8192)
    (hv : ¬x1 (ix3 0 0 j) = 19#32) (hw : (x1 (ix3 0 0 j)).toNat ≤ 18) :
    oneHot x1 M (ix2 k j) = if k = cls (x1 (ix3 0 0 j)) then M (ix2 k j) else 0 := by
  have e1 : iota .tc S19x8192 32 [0] iota_S19x8192_d0_w32 (ix2 k j) = BitVec.ofNat 32 k.val :=
    iota_single_apply .tc S19x8192 32 0 iota_S19x8192_d0_w32 (ix2 k j)
  have e2 : broadcastTo S19x8192 (safeLbl x1) broadcasts_S1x8192_S19x8192 (ix2 k j) = x1 (ix3 0 0 j) :=
    (broadcastTo_1b_ab_apply (safeLbl x1) broadcasts_S1x8192_S19x8192 k j).trans (safeLbl_of_ne x1 j hv)
  unfold oneHot
  rw [select_apply]
  show Scalar.select (IntOp.cmpi .eq (iota .tc S19x8192 32 [0] iota_S19x8192_d0_w32 (ix2 k j))
    (broadcastTo S19x8192 (safeLbl x1) broadcasts_S1x8192_S19x8192 (ix2 k j))) _ _ = _
  rw [e1, e2]
  by_cases hk : k = cls (x1 (ix3 0 0 j))
  · rw [if_pos hk, IntOp.cmpi_eq.mpr ((word_eq_iff _ hw k).mpr hk), select_one]
  · rw [if_neg hk, eq_zero_of_ne_one (fun h => hk ((word_eq_iff _ hw k).mp (IntOp.cmpi_eq.mp h))), select_zero]
    exact Ideal.ofBits_zero_f32

/-! ## The sum over the 19 classes -/

/-- Lane j of the reduced [8192] array with class k put back is (k, j). -/
theorem lift_class (h : S19x8192.Reduces [0] S8192) (j : Fin 8192) (k : Fin (S19x8192.size 0)) :
    h.lift (ix1 j) k = ix2 (⟨k.val, k.isLt⟩ : Fin 19) j := by
  funext c; apply Fin.ext
  fin_cases c <;> rfl

/-- The class sum of a [19, 8192] array, recast [8192] → [1, 8192], at lane j. -/
theorem classSum_apply (v : FVec Ideal S19x8192 .f32) (j : Fin 8192) :
    shapeCast S1x8192 (multiReduction .add [0] S8192 v 0x00000000#32 reduces_S19x8192_S8192 (.inl rfl) rfl) shapeCasts_S8192_S1x8192 (ix2 0 j)
      = ∑ k : Fin 19, v (ix2 k j) := by
  refine (shapeCast_a_1a_apply _ shapeCasts_S8192_S1x8192 0 j).trans ?_
  refine (Ideal.multiReduction_add_single v 0x00000000#32 reduces_S19x8192_S8192 (.inl rfl) rfl (ix1 j)).trans ?_
  refine Finset.sum_congr rfl fun k _ => ?_
  rw [lift_class]
  rfl

/-- The row of logits: each lane's similarity with its own (safe) class. -/
def logitRow (x0 : FVec Ideal S1x256x8192 .f32) (x2 : FVec Ideal S19x256 .f32) (x1 : IVec S1x1x8192 32) : FVec Ideal S1x8192 .f32 :=
  shapeCast S1x8192 (multiReduction .add [0] S8192 (oneHot x1 (simTab x0 x2)) 0x00000000#32 reduces_S19x8192_S8192 (.inl rfl) rfl) shapeCasts_S8192_S1x8192

theorem logitRow_apply (x0 : FVec Ideal S1x256x8192 .f32) (x2 : FVec Ideal S19x256 .f32) (x1 : IVec S1x1x8192 32) (j : Fin 8192)
    (hv : ¬x1 (ix3 0 0 j) = 19#32) (hw : (x1 (ix3 0 0 j)).toNat ≤ 18) :
    logitRow x0 x2 x1 (ix2 0 j) = ∑ d : Fin 256, x2 (ix2 (cls (x1 (ix3 0 0 j))) d) * x0 (ix3 0 d j) := by
  unfold logitRow
  rw [classSum_apply]
  rw [Finset.sum_congr rfl fun k _ => oneHot_apply x1 (simTab x0 x2) k j hv hw]
  rw [Finset.sum_ite_eq' Finset.univ (cls (x1 (ix3 0 0 j))) fun k => simTab x0 x2 (ix2 k j)]
  rw [if_pos (Finset.mem_univ _)]
  exact simTab_apply x0 x2 _ j

/-- The payload with its intermediate arrays named. -/
theorem pay8_eq (x0 : FVec Ideal S1x256x8192 .f32) (x2 : FVec Ideal S19x256 .f32) (x1 : IVec S1x1x8192 32) :
    k0_pay8 (F := Ideal) x0 x2 x1
      = shapeCast S1x1 (multiReduction .add [1] S1
          (select (k0_pay7 (F := Ideal) x1)
            (mulf (subf (broadcast S1x8192 (Scalar.ofBits (F := Ideal) .f32 0x3F800000#32)) (logitRow x0 x2 x1))
                  (subf (broadcast S1x8192 (Scalar.ofBits (F := Ideal) .f32 0x3F800000#32)) (logitRow x0 x2 x1)))
            (broadcast S1x8192 (Scalar.ofBits (F := Ideal) .f32 0x00000000#32)))
          0x00000000#32 reduces_S1x8192_S1 (.inl rfl) rfl) shapeCasts_S1_S1x1 := rfl

/-- The tile's partial sum of masked squared errors, when every label of the tile is one of 0, …, 19. -/
theorem pay8_apply (x0 : FVec Ideal S1x256x8192 .f32) (x2 : FVec Ideal S19x256 .f32) (x1 : IVec S1x1x8192 32)
    (hr : ∀ j : Fin 8192, (x1 (ix3 0 0 j)).toNat ≤ 19) :
    k0_pay8 (F := Ideal) x0 x2 x1 (ix2 0 0) = ∑ j : Fin 8192, blkTerm x0 x2 x1 j := by
  rw [pay8_eq, laneSum_apply]
  refine Finset.sum_congr rfl fun j _ => ?_
  unfold blkTerm
  rw [select_apply]
  by_cases hv : x1 (ix3 0 0 j) = 19#32
  · rw [pay7_of_eq x1 j hv, select_zero, if_pos hv]
    exact Ideal.ofBits_zero_f32
  · have hw : (x1 (ix3 0 0 j)).toNat ≤ 18 := by
      have h19 := hr j
      have hne : (x1 (ix3 0 0 j)).toNat ≠ 19 := fun h => hv (BitVec.eq_of_toNat_eq (by rw [h]; rfl))
      omega
    rw [pay7_of_ne x1 j hv, select_one, if_neg hv]
    exact congrArg (fun t : EReal => (one - t) * (one - t)) (logitRow_apply x0 x2 x1 j hv hw)

/-- The count accumulator's update: what it held plus the number of lanes not ignored. -/
theorem pay2_apply (x1 : IVec S1x1x8192 32) (acc : FVec Ideal S1x1 .f32) :
    k0_pay2 (F := Ideal) (k0_pay9 (F := Ideal) x1) acc (ix2 0 0) = acc (ix2 0 0) + ∑ j : Fin 8192, blkValid x1 j := by
  unfold k0_pay2
  rw [shapeCast_self]
  refine (addf_apply _ _ _).trans ?_
  rw [laneSum_apply]
  exact congrArg (acc (ix2 0 0) + ·) (Finset.sum_congr rfl fun j _ => pay9_apply x1 j)

/-- The sum accumulator's update: what it held plus the tile's partial sum. -/
theorem pay1_apply (v31 acc : FVec Ideal S1x1 .f32) : k0_pay1 (F := Ideal) v31 acc (ix2 0 0) = acc (ix2 0 0) + v31 (ix2 0 0) := by
  show shapeCast S1x1 (addf acc v31) shapeCasts_S1x1_S1x1 (ix2 0 0) = _
  rw [shapeCast_self]
  rfl

/-- The reset values are zero. -/
theorem pay4_apply : k0_pay4 (F := Ideal) (ix2 0 0) = 0 := by
  show shapeCast S1x1 (broadcast S1x1 (Scalar.ofBits (F := Ideal) .f32 0x00000000#32)) shapeCasts_S1x1_S1x1 (ix2 0 0) = _
  rw [shapeCast_self]
  exact Ideal.ofBits_zero_f32
theorem pay5_apply : k0_pay5 (F := Ideal) (ix2 0 0) = 0 := by
  show shapeCast S1x1 (broadcast S1x1 (Scalar.ofBits (F := Ideal) .f32 0x00000000#32)) shapeCasts_S1x1_S1x1 (ix2 0 0) = _
  rw [shapeCast_self]
  exact Ideal.ofBits_zero_f32

/-- The output block holds the sum accumulator at row 0, column 0 … -/
theorem pay3_apply_sum (v50 v53 : FVec Ideal S1x1 .f32) : k0_pay3 (F := Ideal) v50 v53 (ix2 (0 : Fin 8) (0 : Fin 128)) = v50 (ix2 0 0) := by
  unfold k0_pay3
  simp only [select_apply]
  have c1 : (andi (cmpi CmpIPredicate.eq (iota Kind.tc S8x128 32 [0] iota_S8x128_d0_w32) (broadcast S8x128 0#32))
        (cmpi CmpIPredicate.eq (iota Kind.tc S8x128 32 [1] iota_S8x128_d1_w32) (broadcast S8x128 0#32)) (ix2 (0 : Fin 8) (0 : Fin 128))) = 1#1 := by decide
  rw [c1, select_one, shapeCast_self]
  exact bcast11_apply v50 0 0
/-- … and the count accumulator at row 1, column 0. -/
theorem pay3_apply_cnt (v50 v53 : FVec Ideal S1x1 .f32) : k0_pay3 (F := Ideal) v50 v53 (ix2 (1 : Fin 8) (0 : Fin 128)) = v53 (ix2 0 0) := by
  unfold k0_pay3
  simp only [select_apply]
  have c1 : (andi (cmpi CmpIPredicate.eq (iota Kind.tc S8x128 32 [0] iota_S8x128_d0_w32) (broadcast S8x128 0#32))
        (cmpi CmpIPredicate.eq (iota Kind.tc S8x128 32 [1] iota_S8x128_d1_w32) (broadcast S8x128 0#32)) (ix2 (1 : Fin 8) (0 : Fin 128))) = 0#1 := by decide
  have c2 : (andi (cmpi CmpIPredicate.eq (iota Kind.tc S8x128 32 [0] iota_S8x128_d0_w32) (broadcast S8x128 1#32))
        (cmpi CmpIPredicate.eq (iota Kind.tc S8x128 32 [1] iota_S8x128_d1_w32) (broadcast S8x128 0#32)) (ix2 (1 : Fin 8) (0 : Fin 128))) = 1#1 := by decide
  rw [c1, select_zero, c2, select_one, shapeCast_self]
  exact bcast11_apply v53 1 0

end Cert.KernelIdeal.PointValue

end
-- ==== Proof.KernelValue.lean ====
/-
  The kernel program's result.  The output array has 16 rows of 128: rows 0 … 7 are the block written at the last point
  of the first core's share (point 7) and rows 8 … 15 the block written at the last point of the second core's share
  (point 15); the other points leave the array alone.  Each block holds its share's sum at (0, 0) and its share's count at
  (1, 0).  The host lines after the call read the four entries (0,0), (8,0), (1,0), (9,0), add the two sums, add the two
  counts, and divide.
-/
import proofs.«427641_j22436909154962_3_alg».proof.Proof.Fold
import proofs.«427641_j22436909154962_3_alg».proof.Proof.PointValue
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Fold Cert.KernelIdeal.PointValue Idealize.ShloMosaic.ValueIdx

variable (m : (ℓ : Loc nD τ sig) → Buf (Elt Ideal) ℓ) (ρ : Dev nD → PrngReg)

/-- The output block point n leaves in its staging buffer, by the point's number (zero past the grid). -/
def blkAt (c : Dev nD) (n : ℕ) : Vec Ideal S8x128 .f32 := if h : n < cfg0.N then (outsAt0 m c n h).1 else fun _ => 0

theorem blkAt_eq (c : Dev nD) (n : ℕ) (h : n < cfg0.N) : blkAt m c n = (outsAt0 m c n h).1 := dif_pos h

/-- An output-array index's row inside its block of 8 rows, and its column. -/
def rowIn (i : S16x128.Idx) : Fin 8 := ⟨(i 0).val % 8, Nat.mod_lt _ (by decide)⟩
def colOf (i : S16x128.Idx) : Fin 128 := ⟨(i 1).val, idx2_lt1 i⟩

/-- The output array as one function of its index: row 8q + r is row r of the block point 8q + 7 wrote. -/
def outArr (c : Dev nD) : S16x128.Idx → EReal :=
  fun i => blkAt m c (8 * ((i 0).val / 8) + 7) (ix2 (rowIn i) (colOf i))

theorem outArr_apply (c : Dev nD) (i : S16x128.Idx) (q r l : ℕ) (hq : 8 * q + 7 < cfg0.N) (hr : r < 8) (hl : l < 128)
    (h0 : (i 0).val = 8 * q + r) (h1 : (i 1).val = l) :
    outArr m c i = (outsAt0 m c (8 * q + 7) hq).1 (ix2 (⟨r, hr⟩ : Fin 8) (⟨l, hl⟩ : Fin 128)) := by
  have e : 8 * ((i 0).val / 8) + 7 = 8 * q + 7 := by rw [h0]; omega
  have er : rowIn i = ⟨r, hr⟩ := Fin.ext (by show (i 0).val % 8 = r; rw [h0]; omega)
  have ec : colOf i = ⟨l, hl⟩ := Fin.ext h1
  show blkAt m c (8 * ((i 0).val / 8) + 7) (ix2 (rowIn i) (colOf i)) = _
  rw [e, er, ec, blkAt_eq m c _ hq]

/-- Where window 3's block sits at each point, and that it is never cut. -/
theorem out_idx : ∀ t : Fin cfg0.N, win0_3.index t 0 = t.val / 8 ∧ win0_3.index t 1 = 0
    ∧ win0_3.xsize (grid0.coords t) 0 = 8 ∧ win0_3.xsize (grid0.coords t) 1 = 128 :=
  (by decide +kernel : ∀ t : Fin grid0.N, win0_3.index t 0 = t.val / 8 ∧ win0_3.index t 1 = 0
    ∧ win0_3.xsize (grid0.coords t) 0 = 8 ∧ win0_3.xsize (grid0.coords t) 1 = 128)

/-- What a write-back point writes is its block of the one array function. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 16 := N_0
  have h7 : t.val % 8 = 7 := (flush0_3 t).mp hf
  obtain ⟨hi0, hi1, hx0, hx1⟩ := out_idx t
  funext y
  rw [View.read_apply]
  have hy0 : (y 0).val < 8 := lt_of_lt_of_eq (y 0).isLt hx0
  have hy1 : (y 1).val < 128 := lt_of_lt_of_eq (y 1).isLt hx1
  have hq : 8 * (t.val / 8) + 7 < cfg0.N := by have := t.isLt; omega
  rw [outArr_apply m c (((cfg0.win 3).blk t).view.emb y) (t.val / 8) (y 0).val (y 1).val hq hy0 hy1
    (by show win0_3.index t 0 * 8 + 1 * (y 0).val = _; rw [hi0]; omega)
    (by show win0_3.index t 1 * 128 + 1 * (y 1).val = _; rw [hi1]; omega)]
  show (dats m 0 c).after 3 t ((cfg0.win 3).xinj (grid0.coords t) y) = _
  rw [after0_3]
  have et : 8 * (t.val / 8) + 7 = t.val := by omega
  have same : ∀ (n : ℕ) (hn : n < cfg0.N), n = t.val → (outsAt0 m c n hn).1 = (outsAt0 m c t.val t.isLt).1 :=
    fun n hn e => by subst e; rfl
  rw [same _ hq et, cast_eq]
  refine congrArg _ (funext fun a => Fin.ext ?_)
  match a with
  | ⟨0, _⟩ => rfl
  | ⟨1, _⟩ => rfl

/-- Every row of the output array lies in the block written at the last point of its share. -/
theorem covered (c : Dev nD) (i : S16x128.Idx) :
    ∃ t : Fin cfg0.N, (cfg0.win 3).flush t = true ∧ i ∈ ((cfg0.win 3).blk t).view.set := by
  have hN : cfg0.N = 16 := N_0
  have h0 : (i 0).val < 16 := idx2_lt0 i
  have h1 : (i 1).val < 128 := idx2_lt1 i
  have ht : 8 * ((i 0).val / 8) + 7 < cfg0.N := by omega
  refine ⟨⟨8 * ((i 0).val / 8) + 7, ht⟩, (flush0_3 _).mpr (by show (8 * ((i 0).val / 8) + 7) % 8 = 7; omega), ?_⟩
  obtain ⟨hi0, hi1, hx0, hx1⟩ := out_idx ⟨8 * ((i 0).val / 8) + 7, ht⟩
  show i ∈ ((View.whole main_v3).slice (win0_3.rect ⟨8 * ((i 0).val / 8) + 7, ht⟩)).set
  rw [View.set_slice_whole, Rect.mem_set_unit]
  intro a
  match a with
  | ⟨0, _⟩ =>
    show win0_3.index ⟨8 * ((i 0).val / 8) + 7, ht⟩ 0 * 8 ≤ (i 0 : Nat) ∧ (i 0 : Nat) < win0_3.index ⟨8 * ((i 0).val / 8) + 7, ht⟩ 0 * 8 + win0_3.xsize (grid0.coords ⟨8 * ((i 0).val / 8) + 7, ht⟩) 0
    rw [hi0, hx0]; show (8 * ((i 0).val / 8) + 7) / 8 * 8 ≤ (i 0).val ∧ (i 0).val < (8 * ((i 0).val / 8) + 7) / 8 * 8 + 8; omega
  | ⟨1, _⟩ =>
    show win0_3.index ⟨8 * ((i 0).val / 8) + 7, ht⟩ 1 * 128 ≤ (i 1 : Nat) ∧ (i 1 : Nat) < win0_3.index ⟨8 * ((i 0).val / 8) + 7, ht⟩ 1 * 128 + win0_3.xsize (grid0.coords ⟨8 * ((i 0).val / 8) + 7, ht⟩) 1
    rw [hi1, hx1]; omega

/-- So the output array ends holding that function. -/
theorem final_out (c : Dev nD) : (dats m 0 c).arrAt 3 cfg0.N = outArr m c :=
  (dats m 0 c).arrAt_eq_of_cover 3 (outArr m c) (flushed_eq m c) (covered c)

/-! ## The host lines after the call -/

/-- The eleven host operations after the call, as one function of the output array: four one-entry slices, two sums, a quotient. -/
def tailOf {F : FTy → Type} [FloatOps F] (A : FVec F S16x128 .f32) : FVec F S_ .f32 :=
  Host.divf
    (addf (shapeCast S_ (extractStridedSlice S1x1 ![0, 0] A Facts₀.slices_S16x128_S1x1_0_0) Facts₀.shapeCasts_S1x1_S_)
          (shapeCast S_ (extractStridedSlice S1x1 ![8, 0] A Facts₀.slices_S16x128_S1x1_8_0) Facts₀.shapeCasts_S1x1_S_))
    (addf (shapeCast S_ (extractStridedSlice S1x1 ![1, 0] A Facts₀.slices_S16x128_S1x1_1_0) Facts₀.shapeCasts_S1x1_S_)
          (shapeCast S_ (extractStridedSlice S1x1 ![9, 0] A Facts₀.slices_S16x128_S1x1_9_0) Facts₀.shapeCasts_S1x1_S_))

/-- A one-entry slice at row r, column 0, recast to a scalar, reads the array's entry (r, 0). -/
theorem entry_apply (A : FVec Ideal S16x128 .f32) (r : ℕ) (hr : r < 16) (h : S16x128.Slices ![r, 0] S1x1) (i : S_.Idx) :
    shapeCast S_ (extractStridedSlice S1x1 ![r, 0] A h) Facts₀.shapeCasts_S1x1_S_ i = A (ix2 (⟨r, hr⟩ : Fin 16) (0 : Fin 128)) := by
  refine (shapeCast_apply _ Facts₀.shapeCasts_S1x1_S_ i (ix2 (0 : Fin 1) (0 : Fin 1)) ?_).trans ?_
  · rewrite [Shape.rowMajor_val_two]
    have hlt : (S_.rowMajor i).val < 1 := (S_.rowMajor i).isLt
    show 0 * 1 + 0 = (S_.rowMajor i).val
    omega
  · refine extractStridedSlice_apply _ A h (ix2 (0 : Fin 1) (0 : Fin 1)) (ix2 (⟨r, hr⟩ : Fin 16) (0 : Fin 128)) fun a => ?_
    match a with
    | ⟨0, _⟩ => show r = r + 0; omega
    | ⟨1, _⟩ => rfl

theorem tailOf_apply (A : FVec Ideal S16x128 .f32) (i : S_.Idx) :
    tailOf A i = Ideal.div (A (ix2 (0 : Fin 16) (0 : Fin 128)) + A (ix2 (8 : Fin 16) (0 : Fin 128)))
                           (A (ix2 (1 : Fin 16) (0 : Fin 128)) + A (ix2 (9 : Fin 16) (0 : Fin 128))) := by
  unfold tailOf
  show Ideal.div (_ + _) (_ + _) = _
  exact congrArg₂ Ideal.div
    (congrArg₂ (· + ·) (entry_apply A 0 (by decide) Facts₀.slices_S16x128_S1x1_0_0 i) (entry_apply A 8 (by decide) Facts₀.slices_S16x128_S1x1_8_0 i))
    (congrArg₂ (· + ·) (entry_apply A 1 (by decide) Facts₀.slices_S16x128_S1x1_1_0 i) (entry_apply A 9 (by decide) Facts₀.slices_S16x128_S1x1_9_0 i))

/-- The program's result buffer after the host lines is that function of the output array. -/
theorem tail_eq (c : Dev nD) :
    Pipeline.afterTail₀ cfgs (dats m) 0 (V0 m) [hostOps1] c main_v14
      = (tailOf (F := Ideal) ((dats m 0 c).arrAt 3 cfg0.N : S16x128.Idx → EReal) : S_.Idx → EReal) := by
  unfold Pipeline.afterTail₀
  show StableHlo.after hostOps1 _ (Proc.devRef .tc main_v14) = _
  after_results
  rw [Pipeline.withArrays_arr spec0 launch0.win.arr_inj c _ _ 3]
  rfl

/-! ## The accumulators at the last point of a share, read as extended reals -/

/-- Tile n's partial sum of masked squared errors and its partial count of pixels not ignored (zero past the grid). -/
def pointSum (c : Dev nD) (n : ℕ) : EReal :=
  if h : n < cfg0.N then k0_pay8 (F := Ideal) (embBlk m c ⟨n, h⟩) (protoBlk m c ⟨n, h⟩) (lblBlk m c ⟨n, h⟩) (ix2 (0 : Fin 1) (0 : Fin 1)) else 0
def pointCnt (c : Dev nD) (n : ℕ) : EReal :=
  if h : n < cfg0.N then ∑ j : Fin 8192, blkValid (lblBlk m c ⟨n, h⟩) j else 0

/-- A 1×1 array has one index. -/
theorem idx11 (i : S1x1.Idx) : i = ix2 (0 : Fin 1) (0 : Fin 1) := by
  have h0 : (i 0).val < 1 := idx2_lt0 i
  have h1 : (i 1).val < 1 := idx2_lt1 i
  funext a
  match a with
  | ⟨0, _⟩ => exact Fin.ext (by show (i 0).val = 0; omega)
  | ⟨1, _⟩ => exact Fin.ext (by show (i 1).val = 0; omega)

/-- A share's total of the tiles' partial sums, and of their partial counts. -/
def shareSum (c : Dev nD) (q : ℕ) : EReal := ∑ s ∈ Finset.range 8, pointSum m c (8 * q + s)
def shareCnt (c : Dev nD) (q : ℕ) : EReal := ∑ s ∈ Finset.range 8, pointCnt m c (8 * q + s)

/-- After the last point of share q the sum accumulator holds the share's total. -/
theorem sum_share (c : Dev nD) (q : ℕ) (hq : 8 * q + 7 < cfg0.N) :
    sumAt m c (8 * q + 7) hq (ix2 (0 : Fin 1) (0 : Fin 1)) = shareSum m c q := by
  rw [sumAt_share m c q 7 (by decide) hq]
  rw [Pipeline.accAt_add_apply (fun n h => sumStep m c n h (k0_pay4 (F := Ideal))) (fun n h acc => sumStep m c n h acc)
    (fun i => k0_pay4 (F := Ideal) i) (fun n _ => pointSum m c n) (8 * q) 7
    (fun h i => by
      obtain rfl := idx11 i
      show sumStep m c (8 * q) h (k0_pay4 (F := Ideal)) (ix2 (0 : Fin 1) (0 : Fin 1)) = _
      unfold sumStep pointSum
      rw [dif_pos h]
      exact pay1_apply _ _)
    (fun n h acc i _ _ => by
      obtain rfl := idx11 i
      show sumStep m c n h acc (ix2 (0 : Fin 1) (0 : Fin 1)) = _
      unfold sumStep pointSum
      rw [dif_pos h]
      exact pay1_apply _ _)
    7 le_rfl hq (ix2 (0 : Fin 1) (0 : Fin 1))]
  rw [pay4_apply, zero_add]
  rfl

/-- After the last point of share q the count accumulator holds the share's count. -/
theorem cnt_share (c : Dev nD) (q : ℕ) (hq : 8 * q + 7 < cfg0.N) :
    cntAt m c (8 * q + 7) hq (ix2 (0 : Fin 1) (0 : Fin 1)) = shareCnt m c q := by
  rw [cntAt_share m c q 7 (by decide) hq]
  rw [Pipeline.accAt_add_apply (fun n h => cntStep m c n h (k0_pay5 (F := Ideal))) (fun n h acc => cntStep m c n h acc)
    (fun i => k0_pay5 (F := Ideal) i) (fun n _ => pointCnt m c n) (8 * q) 7
    (fun h i => by
      obtain rfl := idx11 i
      show cntStep m c (8 * q) h (k0_pay5 (F := Ideal)) (ix2 (0 : Fin 1) (0 : Fin 1)) = _
      unfold cntStep pointCnt
      rw [dif_pos h]
      exact pay2_apply _ _)
    (fun n h acc i _ _ => by
      obtain rfl := idx11 i
      show cntStep m c n h acc (ix2 (0 : Fin 1) (0 : Fin 1)) = _
      unfold cntStep pointCnt
      rw [dif_pos h]
      exact pay2_apply _ _)
    7 le_rfl hq (ix2 (0 : Fin 1) (0 : Fin 1))]
  rw [pay5_apply, zero_add]
  rfl

/-- The output array's entry (8q, 0) is share q's total, and its entry (8q + 1, 0) is share q's count. -/
theorem outArr_sum (c : Dev nD) (q : ℕ) (hq : 8 * q + 7 < cfg0.N) (hr : 8 * q < 16) :
    outArr m c (ix2 (⟨8 * q, hr⟩ : Fin 16) (0 : Fin 128)) = shareSum m c q := by
  rw [outArr_apply m c _ q 0 0 hq (by decide) (by decide) (by show 8 * q = 8 * q + 0; omega) rfl]
  show (outsAt0 m c (8 * q + 6 + 1) hq).1 (ix2 (0 : Fin 8) (0 : Fin 128)) = shareSum m c q
  rw [block_last m c (8 * q + 6) hq (by omega)]
  exact (pay3_apply_sum _ _).trans (sum_share m c q hq)

theorem outArr_cnt (c : Dev nD) (q : ℕ) (hq : 8 * q + 7 < cfg0.N) (hr : 8 * q + 1 < 16) :
    outArr m c (ix2 (⟨8 * q + 1, hr⟩ : Fin 16) (0 : Fin 128)) = shareCnt m c q := by
  rw [outArr_apply m c _ q 1 0 hq (by decide) (by decide) rfl rfl]
  show (outsAt0 m c (8 * q + 6 + 1) hq).1 (ix2 (1 : Fin 8) (0 : Fin 128)) = shareCnt m c q
  rw [block_last m c (8 * q + 6) hq (by omega)]
  exact (pay3_apply_cnt _ _).trans (cnt_share m c q hq)

/-! ## The run -/

/-- The kernel program's result: the two shares' totals added, the two shares' counts added, the quotient. -/
def result (c : Dev nD) : S_.Idx → EReal :=
  fun _ => Ideal.div (shareSum m c 0 + shareSum m c 1) (shareCnt m c 0 + shareCnt m c 1)

theorem tail_result (c : Dev nD) :
    Pipeline.afterTail₀ cfgs (dats m) 0 (V0 m) [hostOps1] c main_v14 = result m c := by
  have hN : cfg0.N = 16 := N_0
  rw [tail_eq m c, final_out m c]
  funext i
  rw [tailOf_apply]
  unfold result
  have s0 := outArr_sum m c 0 (by omega) (by decide)
  have s1 := outArr_sum m c 1 (by omega) (by decide)
  have c0 := outArr_cnt m c 0 (by omega) (by decide)
  have c1 := outArr_cnt m c 1 (by omega) (by decide)
  exact congrArg₂ Ideal.div (congrArg₂ (· + ·) s0 s1) (congrArg₂ (· + ·) c0 c1)

/-- Every weakly fair execution of the kernel program terminates with its result buffer at that quotient and its three
    argument arrays unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KValue

end
-- ==== Proof.BlockReads.lean ====
/-
  The three input blocks of a grid point read back as the argument arrays.  Grid point t works on batch t / 2 and on
  pixels 8192 · (t % 2) … 8192 · (t % 2) + 8191 of that batch's 16384 (the image's rows and columns merged by a reshape
  before the call): lane j of the point's tile is pixel 8192 · t + j of the whole batch-major numbering.
-/
import proofs.«427641_j22436909154962_3_alg».proof.Proof.Fold
import proofs.«427641_j22436909154962_3_alg».proof.Proof.Spec
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem

namespace Cert.KernelIdeal.BlockReads

open Cert.KernelIdeal Cert.KernelIdeal.Gen Cert.KernelIdeal.Fold Idealize.ShloMosaic.ValueIdx

variable {F : FTy → Type} [FloatOps F]
variable (m : (ℓ : Loc nD τ sig) → Buf (Elt F) ℓ)

/-- Which block of its array each input window holds at each point. -/
theorem in_idx : ∀ t : Fin cfg0.N, win0_0.index t 0 = t.val / 2 ∧ win0_0.index t 1 = 0 ∧ win0_0.index t 2 = t.val % 2
    ∧ win0_1.index t 0 = t.val / 2 ∧ win0_1.index t 1 = 0 ∧ win0_1.index t 2 = t.val % 2
    ∧ win0_2.index t 0 = 0 ∧ win0_2.index t 1 = 0 :=
  (by decide +kernel : ∀ t : Fin grid0.N, win0_0.index t 0 = t.val / 2 ∧ win0_0.index t 1 = 0 ∧ win0_0.index t 2 = t.val % 2
    ∧ win0_1.index t 0 = t.val / 2 ∧ win0_1.index t 1 = 0 ∧ win0_1.index t 2 = t.val % 2
    ∧ win0_2.index t 0 = 0 ∧ win0_2.index t 1 = 0)

/-- The embedding as the call finds it: the argument with its rows and columns merged. -/
theorem V_emb (c : Dev nD) : (V m c main_v0 : S8x256x16384.Idx → Elt F .f32)
    = shapeCast S8x256x16384 (m ((c : Thread nD τ).loc main_arg0)) Facts₀.shapeCasts_S8x256x128x128_S8x256x16384 := by
  show StableHlo.after hostOps0 (fun b => m (c, b)) (Proc.devRef .tc main_v0) = _
  after_results
  rfl

/-- The labels as the call finds them: rows and columns merged, then a unit axis inserted. -/
theorem V_lbl (c : Dev nD) : (V m c main_v2 : S8x1x16384.Idx → Elt F .i32)
    = shapeCast S8x1x16384 (shapeCast S8x16384 (m ((c : Thread nD τ).loc main_arg1)) Facts₀.shapeCasts_S8x128x128_S8x16384) Facts₀.shapeCasts_S8x16384_S8x1x16384 := by
  show StableHlo.after hostOps0 (fun b => m (c, b)) (Proc.devRef .tc main_v2) = _
  after_results
  rfl

theorem embBlk_apply (c : Dev nD) (t : Fin cfg0.N) (d : Fin 256) (j : Fin 8192) (hb : t.val / 2 < 8)
    (hh : (8192 * (t.val % 2) + j.val) / 128 < 128) (hw : (8192 * (t.val % 2) + j.val) % 128 < 128) :
    embBlk m c t (ix3 (0 : Fin 1) d j)
      = m ((c : Thread nD τ).loc main_arg0) (ix4 (⟨t.val / 2, hb⟩ : Fin 8) d (⟨(8192 * (t.val % 2) + j.val) / 128, hh⟩ : Fin 128) (⟨(8192 * (t.val % 2) + j.val) % 128, hw⟩ : Fin 128)) := by
  obtain ⟨h00, h01, h02, -⟩ := in_idx t
  show ((cfg0.win 0).blk t).view.read (Elt F) (V m c (Pipeline.arrRef spec0 0)) (ix3 (0 : Fin 1) d j) = _
  rw [View.read_apply, cast_eq]
  show V m c main_v0 (((cfg0.win 0).blk t).view.emb (ix3 (0 : Fin 1) d j)) = _
  rw [V_emb]
  have e0 : ((((cfg0.win 0).blk t).view.emb (ix3 (0 : Fin 1) d j)) 0).val = win0_0.index t 0 * 1 + 1 * 0 := rfl
  have e1 : ((((cfg0.win 0).blk t).view.emb (ix3 (0 : Fin 1) d j)) 1).val = win0_0.index t 1 * 256 + 1 * d.val := rfl
  have e2 : ((((cfg0.win 0).blk t).view.emb (ix3 (0 : Fin 1) d j)) 2).val = win0_0.index t 2 * 8192 + 1 * j.val := rfl
  refine shapeCast_apply _ _ _ _ ?_
  show (S8x256x128x128.rowMajor (ix4 (⟨t.val / 2, hb⟩ : Fin 8) d (⟨(8192 * (t.val % 2) + j.val) / 128, hh⟩ : Fin 128) (⟨(8192 * (t.val % 2) + j.val) % 128, hw⟩ : Fin 128))).val
    = (S8x256x16384.rowMajor (((cfg0.win 0).blk t).view.emb (ix3 (0 : Fin 1) d j))).val
  rewrite [Shape.rowMajor_val_four, Shape.rowMajor_val_three]
  show ((t.val / 2 * 256 + d.val) * 128 + (8192 * (t.val % 2) + j.val) / 128) * 128 + (8192 * (t.val % 2) + j.val) % 128
    = (((((cfg0.win 0).blk t).view.emb (ix3 (0 : Fin 1) d j)) 0).val * 256 + ((((cfg0.win 0).blk t).view.emb (ix3 (0 : Fin 1) d j)) 1).val) * 16384
      + ((((cfg0.win 0).blk t).view.emb (ix3 (0 : Fin 1) d j)) 2).val
  rw [e0, e1, e2, h00, h01, h02]
  have := j.isLt
  omega

theorem lblBlk_apply (c : Dev nD) (t : Fin cfg0.N) (j : Fin 8192) (hb : t.val / 2 < 8)
    (hh : (8192 * (t.val % 2) + j.val) / 128 < 128) (hw : (8192 * (t.val % 2) + j.val) % 128 < 128) :
    lblBlk m c t (ix3 (0 : Fin 1) (0 : Fin 1) j)
      = m ((c : Thread nD τ).loc main_arg1) (ix3 (⟨t.val / 2, hb⟩ : Fin 8) (⟨(8192 * (t.val % 2) + j.val) / 128, hh⟩ : Fin 128) (⟨(8192 * (t.val % 2) + j.val) % 128, hw⟩ : Fin 128)) := by
  obtain ⟨-, -, -, h10, h11, h12, -⟩ := in_idx t
  show ((cfg0.win 1).blk t).view.read (Elt F) (V m c (Pipeline.arrRef spec0 1)) (ix3 (0 : Fin 1) (0 : Fin 1) j) = _
  rw [View.read_apply, cast_eq]
  show V m c main_v2 (((cfg0.win 1).blk t).view.emb (ix3 (0 : Fin 1) (0 : Fin 1) j)) = _
  rw [V_lbl]
  have e0 : ((((cfg0.win 1).blk t).view.emb (ix3 (0 : Fin 1) (0 : Fin 1) j)) 0).val = win0_1.index t 0 * 1 + 1 * 0 := rfl
  have e1 : ((((cfg0.win 1).blk t).view.emb (ix3 (0 : Fin 1) (0 : Fin 1) j)) 1).val = win0_1.index t 1 * 1 + 1 * 0 := rfl
  have e2 : ((((cfg0.win 1).blk t).view.emb (ix3 (0 : Fin 1) (0 : Fin 1) j)) 2).val = win0_1.index t 2 * 8192 + 1 * j.val := rfl
  have hp : 8192 * (t.val % 2) + j.val < 16384 := by have := j.isLt; omega
  refine (shapeCast_apply _ _ _ (ix2 (⟨t.val / 2, hb⟩ : Fin 8) (⟨8192 * (t.val % 2) + j.val, hp⟩ : Fin 16384)) ?_).trans ?_
  · rewrite [Shape.rowMajor_val_two, Shape.rowMajor_val_three]
    show t.val / 2 * 16384 + (8192 * (t.val % 2) + j.val)
      = (((((cfg0.win 1).blk t).view.emb (ix3 (0 : Fin 1) (0 : Fin 1) j)) 0).val * 1 + ((((cfg0.win 1).blk t).view.emb (ix3 (0 : Fin 1) (0 : Fin 1) j)) 1).val) * 16384
        + ((((cfg0.win 1).blk t).view.emb (ix3 (0 : Fin 1) (0 : Fin 1) j)) 2).val
    rw [e0, e1, e2, h10, h11, h12]
    omega
  · refine shapeCast_apply _ _ _ _ ?_
    show (S8x128x128.rowMajor (ix3 (⟨t.val / 2, hb⟩ : Fin 8) (⟨(8192 * (t.val % 2) + j.val) / 128, hh⟩ : Fin 128) (⟨(8192 * (t.val % 2) + j.val) % 128, hw⟩ : Fin 128))).val
      = (S8x16384.rowMajor (ix2 (⟨t.val / 2, hb⟩ : Fin 8) (⟨8192 * (t.val % 2) + j.val, hp⟩ : Fin 16384))).val
    rewrite [Shape.rowMajor_val_three, Shape.rowMajor_val_two]
    show (t.val / 2 * 128 + (8192 * (t.val % 2) + j.val) / 128) * 128 + (8192 * (t.val % 2) + j.val) % 128
      = t.val / 2 * 16384 + (8192 * (t.val % 2) + j.val)
    omega

/-- The prototype block is the whole prototype table, at every point. -/
theorem protoBlk_apply (c : Dev nD) (t : Fin cfg0.N) (k : Fin 19) (d : Fin 256) :
    protoBlk m c t (ix2 k d) = m ((c : Thread nD τ).loc main_arg2) (ix2 k d) := by
  obtain ⟨-, -, -, -, -, -, h20, h21⟩ := in_idx t
  show ((cfg0.win 2).blk t).view.read (Elt F) (V m c (Pipeline.arrRef spec0 2)) (ix2 k d) = _
  rw [View.read_apply, cast_eq]
  show V m c main_arg2 (((cfg0.win 2).blk t).view.emb (ix2 k d)) = _
  rw [V_main_arg2]
  refine congrArg _ (funext fun a => Fin.ext ?_)
  match a with
  | ⟨0, _⟩ => show win0_2.index t 0 * 19 + 1 * k.val = k.val; rw [h20]; omega
  | ⟨1, _⟩ => show win0_2.index t 1 * 256 + 1 * d.val = d.val; rw [h21]; omega

end Cert.KernelIdeal.BlockReads

end
-- ==== Proof.Bridge.lean ====
/-
  The kernel program's result is the loss of Spec.lean.  Lane j of the tile of grid point t is pixel 8192 · t + j: its
  label, its embedding and the prototypes read through the point's blocks are the argument arrays at that pixel, so the
  tile's partial sum is the sum of the pixel terms over run t, the tile's partial count the sum of the pixel counts over
  run t; the first core's share is runs 0 … 7 and the second's runs 8 … 15, and the sixteen runs are all the pixels.
  The label range is used once: for the class selection to pick the pixel's own class.
-/
import proofs.«427641_j22436909154962_3_alg».proof.Proof.KernelValue
import proofs.«427641_j22436909154962_3_alg».proof.Proof.BlockReads

noncomputable section

open scoped BigOperators
open Idealize.ShloMosaic Idealize.ShloMosaic.TcCoe Idealize.SL.Sem

namespace Cert.KernelIdeal.Bridge

open Cert.KernelIdeal Cert.KernelIdeal.Gen Cert.KernelIdeal.Fold Cert.KernelIdeal.PointValue Cert.KernelIdeal.KValue
open Cert.KernelIdeal.BlockReads Idealize.ShloMosaic.ValueIdx Cert.PixelLoss

variable (m : (ℓ : Loc nD τ sig) → Buf (Elt Ideal) ℓ)

/-- The three argument arrays, typed as the specification takes them. -/
abbrev argE (c : Dev nD) : EmbS.Idx → EReal := m ((c : Thread nD τ).loc main_arg0)
abbrev argL (c : Dev nD) : LblS.Idx → BitVec 32 := m ((c : Thread nD τ).loc main_arg1)
abbrev argQ (c : Dev nD) : ProtoS.Idx → EReal := m ((c : Thread nD τ).loc main_arg2)

/-- Pixel 8192 · t + j sits in batch t / 2, at row and column (8192 · (t % 2) + j) / 128 and % 128. -/
theorem pix_of_lane (t j : ℕ) (ht : t < 16) (hj : j < 8192) (hn : 8192 * t + j < 131072)
    (hb : t / 2 < 8) (hh : (8192 * (t % 2) + j) / 128 < 128) (hw : (8192 * (t % 2) + j) % 128 < 128) :
    pixB ⟨8192 * t + j, hn⟩ = ⟨t / 2, hb⟩ ∧ pixH ⟨8192 * t + j, hn⟩ = ⟨(8192 * (t % 2) + j) / 128, hh⟩
      ∧ pixW ⟨8192 * t + j, hn⟩ = ⟨(8192 * (t % 2) + j) % 128, hw⟩ := by
  refine ⟨Fin.ext ?_, Fin.ext ?_, Fin.ext ?_⟩
  · show (8192 * t + j) / 16384 = t / 2; omega
  · show (8192 * t + j) / 128 % 128 = (8192 * (t % 2) + j) / 128; omega
  · show (8192 * t + j) % 128 = (8192 * (t % 2) + j) % 128; omega

section Lane
variable (c : Dev nD) (t : Fin cfg0.N) (j : Fin 8192) (hn : 8192 * t.val + j.val < 131072)

theorem lane_bounds : t.val < 16 ∧ t.val / 2 < 8 ∧ (8192 * (t.val % 2) + j.val) / 128 < 128 ∧ (8192 * (t.val % 2) + j.val) % 128 < 128 := by
  have hN : cfg0.N = 16 := N_0
  have := t.isLt
  have := j.isLt
  refine ⟨by omega, by omega, by omega, Nat.mod_lt _ (by decide)⟩

/-- The lane's label is the pixel's. -/
theorem lane_label : lblBlk m c t (ix3 (0 : Fin 1) (0 : Fin 1) j) = label (argL m c) ⟨8192 * t.val + j.val, hn⟩ := by
  obtain ⟨ht, hb, hh, hw⟩ := lane_bounds t j
  obtain ⟨eB, eH, eW⟩ := pix_of_lane t.val j.val ht j.isLt hn hb hh hw
  rw [lblBlk_apply m c t j hb hh hw]
  unfold label
  rw [eB, eH, eW]

/-- The lane's inner product with prototype k is the pixel's similarity with class k. -/
theorem lane_sim (k : Fin 19) :
    ∑ d : Fin 256, protoBlk m c t (ix2 k d) * embBlk m c t (ix3 (0 : Fin 1) d j) = sim (argE m c) (argQ m c) ⟨8192 * t.val + j.val, hn⟩ k := by
  obtain ⟨ht, hb, hh, hw⟩ := lane_bounds t j
  obtain ⟨eB, eH, eW⟩ := pix_of_lane t.val j.val ht j.isLt hn hb hh hw
  unfold sim
  refine Finset.sum_congr rfl fun d _ => ?_
  rw [protoBlk_apply m c t k d, embBlk_apply m c t d j hb hh hw, eB, eH, eW]

/-- What the lane adds to the numerator is the pixel's term. -/
theorem lane_term : blkTerm (embBlk m c t) (protoBlk m c t) (lblBlk m c t) j
    = lossTerm (argE m c) (argL m c) (argQ m c) ⟨8192 * t.val + j.val, hn⟩ := by
  unfold blkTerm lossTerm
  rw [lane_label m c t j hn, lane_sim m c t j hn]

/-- What the lane adds to the denominator is the pixel's. -/
theorem lane_valid : blkValid (lblBlk m c t) j = validTerm (argL m c) ⟨8192 * t.val + j.val, hn⟩ := by
  unfold blkValid validTerm
  rw [lane_label m c t j hn]

end Lane

/-- A tile's partial sum is the sum of the pixel terms over its run, when every label is one of 0, …, 19. -/
theorem pointSum_eq (c : Dev nD) (hL : ∀ i, (argL m c i).toNat ≤ 19) (t : ℕ) (ht : t < 16) :
    pointSum m c t = runSum (lossTerm (argE m c) (argL m c) (argQ m c)) t := by
  have hN : cfg0.N = 16 := N_0
  have htN : t < cfg0.N := by omega
  unfold pointSum
  rw [dif_pos htN]
  have hn : ∀ j : Fin 8192, 8192 * t + j.val < 131072 := fun j => by have := j.isLt; omega
  rw [pay8_apply _ _ _ (fun j => by
    rw [lane_label m c ⟨t, htN⟩ j (hn j)]
    exact hL _)]
  unfold runSum
  refine Finset.sum_congr rfl fun j _ => ?_
  rw [lane_term m c ⟨t, htN⟩ j (hn j)]
  exact (ext_val _ ⟨8192 * t + j.val, hn j⟩).symm

/-- A tile's partial count is the sum of the pixel counts over its run. -/
theorem pointCnt_eq (c : Dev nD) (t : ℕ) (ht : t < 16) :
    pointCnt m c t = runSum (validTerm (argL m c)) t := by
  have hN : cfg0.N = 16 := N_0
  have htN : t < cfg0.N := by omega
  unfold pointCnt
  rw [dif_pos htN]
  have hn : ∀ j : Fin 8192, 8192 * t + j.val < 131072 := fun j => by have := j.isLt; omega
  unfold runSum
  refine Finset.sum_congr rfl fun j _ => ?_
  rw [lane_valid m c ⟨t, htN⟩ j (hn j)]
  exact (ext_val _ ⟨8192 * t + j.val, hn j⟩).symm

/-- The kernel program's result is the loss, when every label is one of 0, …, 19. -/
theorem result_eq (c : Dev nD) (hL : ∀ i, (argL m c i).toNat ≤ 19) (i : S_.Idx) :
    result m c i = loss (argE m c) (argL m c) (argQ m c) := by
  unfold result loss shareSum shareCnt
  rw [sum_pixels_eq_runs, sum_pixels_eq_runs, sum_runs_split, sum_runs_split]
  refine congrArg₂ Ideal.div (congrArg₂ (· + ·) ?_ ?_) (congrArg₂ (· + ·) ?_ ?_)
  · refine Finset.sum_congr rfl fun s hs => ?_
    have hs8 : s < 8 := Finset.mem_range.mp hs
    rw [pointSum_eq m c hL (8 * 0 + s) (by omega)]
  · refine Finset.sum_congr rfl fun s hs => ?_
    have hs8 : s < 8 := Finset.mem_range.mp hs
    rw [pointSum_eq m c hL (8 * 1 + s) (by omega)]
  · refine Finset.sum_congr rfl fun s hs => ?_
    have hs8 : s < 8 := Finset.mem_range.mp hs
    rw [pointCnt_eq m c (8 * 0 + s) (by omega)]
  · refine Finset.sum_congr rfl fun s hs => ?_
    have hs8 : s < 8 := Finset.mem_range.mp hs
    rw [pointCnt_eq m c (8 * 1 + s) (by omega)]

end Cert.KernelIdeal.Bridge

end
-- ==== Proof.lean ====
/-
  Equivalence over the extended reals of a pixel-prototype distance loss computed tile by tile with a jnp reference.

  The reference gathers, at each of the 8·128·128 pixels, the similarity of the pixel's embedding with the prototype of
  the pixel's own class, squares one minus it, and averages over the pixels whose label is not the ignore value 19.
  The kernel never gathers: for each tile of 8192 pixels it multiplies the whole prototype table with the tile's
  embeddings, keeps by a select against the class index the row of the pixel's own class (a sum over the 19 classes in
  which one term survives), and accumulates the masked squared errors and the count of valid pixels in two scalars, one
  pair per core; the host lines after the call add the two cores' pairs and divide.

  The two agree when every label is one of 0, …, 19 (a class, or the ignore value): then the class selection picks
  exactly the column the reference gathers.  Outside that range the reference's gather wraps a negative label around or
  fills with a non-number while the select matches no class, so the stated precondition carries the label range, and
  the proof reads it back from there (PreRange).  Given the range, both results are the quotient of the same two sums
  over the pixels (Spec), grouped differently: all at once in the reference (RefValue), and in sixteen runs of 8192,
  eight per core, in the kernel (KernelValue, Bridge).  Addition on the extended reals is commutative and associative,
  so the regrouping needs no finiteness; the finiteness conjuncts of the precondition are not used.

  The three frames are the generated ones; nothing was rewritten in the kernel's idealization, so that conjunct is trivial.
-/
import proofs.«427641_j22436909154962_3_alg».proof.Defs
import proofs.«427641_j22436909154962_3_alg».proof.Proof.Gen.Kernel
import proofs.«427641_j22436909154962_3_alg».proof.Proof.Gen.Kernel.Frame
import proofs.«427641_j22436909154962_3_alg».proof.Proof.Gen.KernelIdeal
import proofs.«427641_j22436909154962_3_alg».proof.Proof.Gen.KernelIdeal.Frame
import proofs.«427641_j22436909154962_3_alg».proof.Proof.Gen.ReferenceIdeal
import proofs.«427641_j22436909154962_3_alg».proof.Proof.Gen.Pre_finite_inputs
import proofs.«427641_j22436909154962_3_alg».proof.Proof.RefRun
import proofs.«427641_j22436909154962_3_alg».proof.Proof.RefRead
import proofs.«427641_j22436909154962_3_alg».proof.Proof.RefValue
import proofs.«427641_j22436909154962_3_alg».proof.Proof.PreRange
import proofs.«427641_j22436909154962_3_alg».proof.Proof.KernelValue
import proofs.«427641_j22436909154962_3_alg».proof.Proof.Bridge
import Idealize.ShloMosaic.Adequacy
import Idealize.ShloMosaic.Init

noncomputable section

namespace Cert.Proof

open Idealize.ShloMosaic Idealize.SL.Sem

/-- The three programs terminate without a fault and leave their arguments alone. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunCopy.run (F := Ideal) m ρ)

theorem preserves : Cert.preserves_Kernel_KernelIdeal := trivial

/-- From memories that agree on the arguments and satisfy the precondition, both idealized programs end with the loss
    of the argument arrays in their result buffer. -/
theorem algebraic : Cert.algebraic_KernelIdeal_ReferenceIdeal := by
  intro m ρ m' ρ' hpre hagree
  have hL : ∀ (c : Dev Cert.KernelIdeal.nD) i, (Cert.KernelIdeal.Bridge.argL m c i).toNat ≤ 19 := fun c i =>
    Cert.PixelLoss.Pre.label_le_of_pre (F := Ideal) _ _ _ (hpre c) i
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v18_eq, (hagree c).1, (hagree c).2.1, (hagree c).2.2]
  funext i
  exact (Cert.ReferenceIdeal.RefValue.ref_value _ _ _ (hL c) i).trans (Cert.KernelIdeal.Bridge.result_eq m c (hL c) i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
